-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel

variable [Facts]

def fn {F : FTy → Type} [FloatOps F] (main_arg0 : FVec F S1000000x128 .f32) (main_arg1 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  main_v3
-- ==== Kernel.lean ====
abbrev S1000000x128 : Shape := ⟨2, ![1000000, 128]⟩
abbrev S1000000 : Shape := ⟨1, ![1000000]⟩
abbrev S1000000x1 : Shape := ⟨2, ![1000000, 1]⟩
abbrev S2x128x128 : Shape := ⟨3, ![2, 128, 128]⟩
abbrev S2x1x128 : Shape := ⟨3, ![2, 1, 128]⟩
abbrev S5000x128 : Shape := ⟨2, ![5000, 128]⟩
abbrev S5000x1 : Shape := ⟨2, ![5000, 1]⟩
abbrev S1x128x128 : Shape := ⟨3, ![1, 128, 128]⟩
abbrev S1x1x128 : Shape := ⟨3, ![1, 1, 128]⟩
abbrev S128x128 : Shape := ⟨2, ![128, 128]⟩
abbrev S1x128 : Shape := ⟨2, ![1, 128]⟩
abbrev S128 : Shape := ⟨1, ![128]⟩
abbrev S5000 : Shape := ⟨1, ![5000]⟩
abbrev S_ : Shape := ⟨0, ![]⟩
abbrev S128x1 : Shape := ⟨2, ![128, 1]⟩

abbrev nBuf : Space → Nat
  | .hbm => 49
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S1000000x1, .i32⟩
  | .hbm, ⟨3, _⟩ => ⟨S2x128x128, .f32⟩
  | .hbm, ⟨4, _⟩ => ⟨S2x1x128, .f32⟩
  | .hbm, ⟨5, _⟩ => ⟨S2x128x128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S1x128, .f32⟩
  | .hbm, ⟨10, _⟩ => ⟨S128, .f32⟩
  | .hbm, ⟨11, _⟩ => ⟨S_, .f32⟩
  | .hbm, ⟨12, _⟩ => ⟨S128x128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128x1, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128x128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .i1⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x1, .i32⟩
  | .local _ .vmem, ⟨3, _⟩ => ⟨S5000x1, .i32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S1x128x128, .f32⟩
  | .local _ .vmem, ⟨9, _⟩ => ⟨S1x128x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_cst_11 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 100], ![false, false]⟩

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1000000_S1000000x1 : S1000000.ShapeCasts S1000000x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S128_S1x128 : S128.ShapeCasts S1x128
  reduces_S5000x128_S5000 : S5000x128.Reduces [1] S5000
  shapeCasts_S5000_S5000x1 : S5000.ShapeCasts S5000x1
  reducesTo_S2x128x128_S128x128_d0 : S2x128x128.ReducesTo [0] S128x128
  h_S_ : 0 < S_.numel
  reducesTo_S2x1x128_S1x128_d0 : S2x1x128.ReducesTo [0] S1x128
  shapeCasts_S1x128_S128 : S1x128.ShapeCasts S128
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  reducesTo_S128x128_S128_d1 : S128x128.ReducesTo [1] S128
  reducesTo_S128_S_d0 : S128.ReducesTo [0] S_
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1000000x1.size a
  hwx0_1 : ∀ i : grid0.Coords, EltTy.bits .i32 = 32 ∨ (Rect.block (s := S1000000x1) S5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S2x128x128.size a
  hwx0_4 : ∀ i : grid0.Coords, EltTy.bits .f32 = 32 ∨ (Rect.block (s := S2x128x128) S1x128x128.size (cc0_transform_4 i) (hinb0_4 i)).WholeWords (EltTy.packing .f32)

variable [Facts₀]

def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S_ : Shape := ⟨0, ![]⟩
abbrev S100 : Shape := ⟨1, ![100]⟩
abbrev S1000000x1 : Shape := ⟨2, ![1000000, 1]⟩
abbrev S100x128 : Shape := ⟨2, ![100, 128]⟩
abbrev S100x1 : Shape := ⟨2, ![100, 1]⟩

abbrev nBuf : Space → Nat
  | .hbm => 72
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S_, .f32⟩
  | .hbm, ⟨3, _⟩ => ⟨S1000000, .f32⟩
  | .hbm, ⟨4, _⟩ => ⟨S_, .f32⟩
  | .hbm, ⟨5, _⟩ => ⟨S100, .f32⟩
  | .hbm, ⟨6, _⟩ => ⟨S1000000x1, .i32⟩
  | .hbm, ⟨7, _⟩ => ⟨S100, .f32⟩
  | .hbm, ⟨8, _⟩ => ⟨S_, .f32⟩
  | .hbm, ⟨9, _⟩ => ⟨S100x128, .f32⟩
  | .hbm, ⟨10, _⟩ => ⟨S1000000x1, .i32⟩
  | .hbm, ⟨11, _⟩ => ⟨S100x128, .f32⟩
  | .hbm, ⟨12, _⟩ => ⟨S_, .f32⟩
  | .hbm, ⟨13, _⟩ => ⟨S100, .f32⟩
  | .hbm, ⟨14, _⟩ => ⟨S100, .f32⟩
  | .hbm, ⟨15, _⟩ => ⟨S100x1, .f32⟩
  | .hbm, ⟨16, _⟩ => ⟨S100x128, .f32⟩
  | .hbm, ⟨17, _⟩ => ⟨S100x128, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .f32⟩
  | .hbm, ⟨27, _⟩ => ⟨S1000000x128, .f32⟩
  | .hbm, ⟨28, _⟩ => ⟨S_, .f32⟩
  | .hbm, ⟨29, _⟩ => ⟨S1000000, .f32⟩
  | .hbm, ⟨30, _⟩ => ⟨S1000000x128, .f32⟩
  | .hbm, ⟨31, _⟩ => ⟨S_, .f32⟩
  | .hbm, ⟨32, _⟩ => ⟨S1000000, .f32⟩
  | .hbm, ⟨33, _⟩ => ⟨S1000000, .f32⟩
  | .hbm, ⟨34, _⟩ => ⟨S_, .f32⟩
  | .hbm, ⟨35, _⟩ => ⟨S1000000, .f32⟩
  | .hbm, ⟨36, _⟩ => ⟨S1000000, .f32⟩
  | .hbm, ⟨37, _⟩ => ⟨S1000000x128, .f32⟩
  | .hbm, ⟨38, _⟩ => ⟨S_, .f32⟩
  | .hbm, ⟨39, _⟩ => ⟨S1000000, .f32⟩
  | .hbm, ⟨40, _⟩ => ⟨S1000000, .f32⟩
  | .hbm, ⟨41, _⟩ => ⟨S_, .f32⟩
  | .hbm, ⟨42, _⟩ => ⟨S1000000, .f32⟩
  | .hbm, ⟨43, _⟩ => ⟨S1000000, .f32⟩
  | .hbm, ⟨44, _⟩ => ⟨S1000000, .f32⟩
  | .hbm, ⟨45, _⟩ => ⟨S1000000, .f32⟩
  | .hbm, ⟨46, _⟩ => ⟨S_, .f32⟩
  | .hbm, ⟨47, _⟩ => ⟨S100, .f32⟩
  | .hbm, ⟨48, _⟩ => ⟨S1000000x1, .i32⟩
  | .hbm, ⟨49, _⟩ => ⟨S100, .f32⟩
  | .hbm, ⟨50, _⟩ => ⟨S_, .f32⟩
  | .hbm, ⟨51, _⟩ => ⟨S100, .f32⟩
  | .hbm, ⟨52, _⟩ => ⟨S100, .f32⟩
  | .hbm, ⟨53, _⟩ => ⟨S100, .f32⟩
  | .hbm, ⟨54, _⟩ => ⟨S_, .f32⟩
  | .hbm, ⟨55, _⟩ => ⟨S100, .f32⟩
  | .hbm, ⟨56, _⟩ => ⟨S100, .i1⟩
  | .hbm, ⟨57, _⟩ => ⟨S_, .f32⟩
  | .hbm, ⟨58, _⟩ => ⟨S100, .f32⟩
  | .hbm, ⟨59, _⟩ => ⟨S100, .f32⟩
  | .hbm, ⟨60, _⟩ => ⟨S_, .f32⟩
  | .hbm, ⟨61, _⟩ => ⟨S_, .f32⟩
  | .hbm, ⟨62, _⟩ => ⟨S100, .f32⟩
  | .hbm, ⟨63, _⟩ => ⟨S100, .f32⟩
  | .hbm, ⟨64, _⟩ => ⟨S_, .f32⟩
  | .hbm, ⟨65, _⟩ => ⟨S_, .f32⟩
  | .hbm, ⟨66, _⟩ => ⟨S100, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_call0_v0 : Ref sig .tc := ⟨.hbm, 61, rfl⟩
abbrev main_call0_v1 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_cst_15 : Ref sig .tc := ⟨.hbm, 67, rfl⟩
abbrev main_v46 : Ref sig .tc := ⟨.hbm, 68, rfl⟩
abbrev main_cst_16 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100 : S_.BroadcastsInDim S100 (![] : Fin 0 → Fin S100.rank)
  bcast_S1000000_S1000000x1_0 : S1000000.BroadcastsInDim S1000000x1 (![0] : Fin 1 → Fin S1000000x1.rank)
  bcast_S_S100x128 : S_.BroadcastsInDim S100x128 (![] : Fin 0 → Fin S100x128.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  reducesTo_S1000000x128_S1000000_d1 : S1000000x128.ReducesTo [1] S1000000
  h_S_ : 0 < S_.numel
  reducesTo_S100_S_d0 : S100.ReducesTo [0] S_
  scatter_S100_S1000000x1_S1000000_n_0_0_1_wf : ScatterDims.WF S100 S1000000x1 S1000000 [] [0] [0] 1
  scatter_S100x128_S1000000x1_S1000000x128_1_0_0_1_wf : ScatterDims.WF S100x128 S1000000x1 S1000000x128 [1] [0] [0] 1
  gather_S100x128_S1000000x1_S1000000x128_1_0_n_n_0_1_1128_wf : GatherDims.WF S100x128 S1000000x1 S1000000x128 [1] [0] [] [0] [] 1 ![1, 128]

variable [Facts₀]

def scatter_S100_S1000000x1_S1000000_n_0_0_1 : ScatterDims S100 S1000000x1 S1000000 where
  updateWindowDims := []
  insertedWindowDims := [0]
  scatterDimsToOperandDims := [0]
  indexVectorDim := 1
  wf := scatter_S100_S1000000x1_S1000000_n_0_0_1_wf
def scatter_S100x128_S1000000x1_S1000000x128_1_0_0_1 : ScatterDims S100x128 S1000000x1 S1000000x128 where
  updateWindowDims := [1]
  insertedWindowDims := [0]
  scatterDimsToOperandDims := [0]
  indexVectorDim := 1
  wf := scatter_S100x128_S1000000x1_S1000000x128_1_0_0_1_wf
def gather_S100x128_S1000000x1_S1000000x128_1_0_n_n_0_1_1128 : GatherDims S100x128 S1000000x1 S1000000x128 where
  offsetDims := [1]
  collapsedSliceDims := [0]
  operandBatchingDims := []
  startIndicesBatchingDims := []
  startIndexMap := [0]
  indexVectorDim := 1
  sliceSizes := ![1, 128]
  wf := gather_S100x128_S1000000x1_S1000000x128_1_0_n_n_0_1_1128_wf

class Facts : Prop extends Facts₀ where

variable [Facts]
-- ==== Proof.LibRowIndexed.lean ====
/-
  Rows of a table addressed by a column of integer positions, read at one element.

  Two StableHLO operations move whole rows of a rank-2 table `[N, C]` according to an `[n, 1]` column of
  positions: the row GATHER (`table[idx]`: result row `p` is the table's row at position `idx p`) and the
  row SCATTER (`zeros.at[idx].add(updates)`: update row `e` lands on the table's row `idx e`). They treat a
  position outside `[0, N)` differently, and that difference is what the lemmas below pin down:

  * the gather reads the position as a signed integer and CLAMPS it into `[0, N - 1]`;
  * the scatter reads the position as a signed integer and DROPS the update row when it is not in `[0, N)`;
    so update element `(e, q)` lands on table element `(r, q')` exactly when `idx e = r` as integers and `q = q'`.
-/
import Idealize.ShloMosaic.PureOps
import Idealize.ShloMosaic.Lib.ValueIdx
import Idealize.ShloMosaic.Lib.StableHlo.Predicate

namespace Idealize.ShloMosaic.RowIndexed

open Idealize.ShloMosaic Idealize.ShloMosaic.ValueIdx Idealize.ShloMosaic.StableHlo.Predicate

/-! ## The row gather -/

/-- The row gather's dimension numbers: the rows collapsed and start-indexed, the columns an offset axis, the index
    vector on axis 1 of the column of positions. -/
abbrev rowGather (N C n : Nat) (sb : List (Fin 2)) (ss : Fin 2 → Nat)
    (wf : GatherDims.WF ⟨2, ![N, C]⟩ ⟨2, ![n, 1]⟩ ⟨2, ![n, C]⟩ [1] [0] [] [0] sb 1 ss) :
    GatherDims ⟨2, ![N, C]⟩ ⟨2, ![n, 1]⟩ ⟨2, ![n, C]⟩ :=
  ⟨[1], [0], [], sb, [0], 1, ss, wf⟩

theorem rowGather_apply {α : Type} {N C n w : Nat} (sb : List (Fin 2)) (ss : Fin 2 → Nat)
    (wf : GatherDims.WF ⟨2, ![N, C]⟩ ⟨2, ![n, 1]⟩ ⟨2, ![n, C]⟩ [1] [0] [] [0] sb 1 ss)
    (x : (⟨2, ![N, C]⟩ : Shape).Idx → α) (idx : IVec ⟨2, ![n, 1]⟩ w) (p : Fin n) (q : Fin C) (hN : 0 < N) :
    Host.gather (rowGather N C n sb ss wf) x idx (ix2 p q) = x (ix2 ⟨min (idx (ixP p)).toInt.toNat (N - 1), by omega⟩ q) := by
  unfold Host.gather
  congr 1
  funext a
  apply Fin.ext
  match a with
  | ⟨0, h0⟩ =>
    show (rowGather N C n sb ss wf).start (ix2 p q) idx ⟨0, h0⟩ + (rowGather N C n sb ss wf).batchCoord (ix2 p q) ⟨0, h0⟩
      + (rowGather N C n sb ss wf).offCoord (ix2 p q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N C n sb ss wf).startIndexMap from List.mem_singleton.mpr rfl)]
    have hsl : ss 0 = 1 := (rowGather N C n sb ss wf).slice_collapsed 0 (List.mem_singleton.mpr rfl)
    have hsi : (rowGather N C n sb ss wf).siIdx (ix2 p q) ⟨List.idxOf (⟨0, h0⟩ : Fin 2) (rowGather N C n sb ss wf).startIndexMap,
        List.idxOf_lt_length_iff.2 (List.mem_singleton.mpr rfl)⟩ = ixP p := by
      funext b; refine Fin.ext ?_
      match b with
      | ⟨0, _⟩ => rfl
      | ⟨1, _⟩ => rfl
    rw [hsi]
    show min (idx (ixP p)).toInt.toNat (N - ss 0) = _
    rw [hsl]
  | ⟨1, h1⟩ =>
    show (rowGather N C n sb ss wf).start (ix2 p q) idx ⟨1, h1⟩ + (rowGather N C n sb ss wf).batchCoord (ix2 p q) ⟨1, h1⟩
      + (rowGather N C n sb ss wf).offCoord (ix2 p q) ⟨1, h1⟩ = _
    rw [GatherDims.batchCoord_eq_zero _ _ _ List.not_mem_nil]
    unfold GatherDims.start
    rw [dif_neg (fun h => absurd (congrArg Fin.val (List.mem_singleton.mp h)) Nat.one_ne_zero)]
    simp only [Nat.zero_add, Nat.add_zero]
    rfl

/-- THE ROW GATHER. `table[idx]` over a rank-2 table: one collapsed, start-indexed axis (the rows), the columns an
    offset axis taken whole, the index vector on axis 1 of the `[n, 1]` column of positions. Result element `(p, q)` is the
    table's element `(r, q)`, `r` the position `idx p` read signed and clamped into `[0, N - 1]`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ixP p)).toInt.toNat (N - 1), by omega⟩ q) := by
  obtain ⟨od, cd, ob, sb, sim, ivd, ss, wf⟩ := d
  dsimp only at hoff hcoll hob hsim hivd
  subst hoff hcoll hob hsim hivd
  exact rowGather_apply sb ss wf x idx p q hN

/-! ## The row scatter -/

/-- The row scatter's dimension numbers: the rows inserted and scattered, the columns a window axis, the index vector
    on axis 1 of the column of positions. -/
abbrev rowScatter (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ :=
  ⟨[1], [0], [0], 1, wf⟩

section
variable {N C n w : Nat} (wf : ScatterDims.WF ⟨2, ![N, C]⟩ ⟨2, ![n, 1]⟩ ⟨2, ![n, C]⟩ [1] [0] [0] 1)
  (idx : IVec ⟨2, ![n, 1]⟩ w) (e : Fin n) (q : Fin C)

theorem rowScatter_start0 (h0 : 0 < 2) : (rowScatter N C n wf).start (ix2 e q) idx ⟨0, h0⟩ = (idx (ixP e)).toInt := by
  unfold ScatterDims.start
  rw [dif_pos (show (⟨0, h0⟩ : Fin 2) ∈ (rowScatter N C n wf).scatterDimsToOperandDims from List.mem_singleton.mpr rfl)]
  have hsi : (rowScatter N C n wf).siIdx (ix2 e q) ⟨List.idxOf (⟨0, h0⟩ : Fin 2) (rowScatter N C n wf).scatterDimsToOperandDims,
      List.idxOf_lt_length_iff.2 (List.mem_singleton.mpr rfl)⟩ = ixP e := by
    funext b; refine Fin.ext ?_
    match b with
    | ⟨0, _⟩ => rfl
    | ⟨1, _⟩ => rfl
  rw [hsi]

theorem rowScatter_start1 (h1 : 1 < 2) : (rowScatter N C n wf).start (ix2 e q) idx ⟨1, h1⟩ = 0 := by
  unfold ScatterDims.start
  rw [dif_neg (fun h => absurd (congrArg Fin.val (List.mem_singleton.mp h)) Nat.one_ne_zero)]

theorem rowScatter_sKept : (rowScatter N C n wf).sKept = [(1 : Fin 2)] := rfl

theorem rowScatter_window0 (h0 : 0 < 2) : (rowScatter N C n wf).window (ix2 e q) ⟨0, h0⟩ = 0 := by
  unfold ScatterDims.window
  rw [dif_neg (fun h => by
    rw [rowScatter_sKept] at h
    exact absurd (congrArg Fin.val (List.mem_singleton.mp h)) (Nat.zero_ne_one))]

theorem rowScatter_window1 (h1 : 1 < 2) : (rowScatter N C n wf).window (ix2 e q) ⟨1, h1⟩ = q.val := by
  unfold ScatterDims.window
  rw [dif_pos (by rw [rowScatter_sKept]; exact List.mem_singleton.mpr rfl)]
  rfl

theorem rowScatter_resultIdx (i : (⟨2, ![N, C]⟩ : Shape).Idx) :
    (rowScatter N C n wf).resultIdx? (ix2 e q) idx = some i ↔ (idx (ixP e)).toInt = ((i 0).val : Int) ∧ q = i 1 := by
  have hi0 : (i 0).val < N := (i 0).isLt
  have hi1 : (i 1).val < C := (i 1).isLt
  have hq : q.val < C := q.isLt
  constructor
  · intro hres
    unfold ScatterDims.resultIdx? at hres
    split at hres
    · rename_i h
      have hres' := Option.some.inj hres
      have e0 : ((rowScatter N C n wf).start (ix2 e q) idx ⟨0, Nat.zero_lt_two⟩ + (rowScatter N C n wf).window (ix2 e q) ⟨0, Nat.zero_lt_two⟩).toNat = (i 0).val :=
        congrArg Fin.val (congrFun hres' ⟨0, Nat.zero_lt_two⟩)
      have e1 : ((rowScatter N C n wf).start (ix2 e q) idx ⟨1, Nat.one_lt_two⟩ + (rowScatter N C n wf).window (ix2 e q) ⟨1, Nat.one_lt_two⟩).toNat = (i 1).val :=
        congrArg Fin.val (congrFun hres' ⟨1, Nat.one_lt_two⟩)
      have h0 := (h ⟨0, Nat.zero_lt_two⟩).1
      rw [rowScatter_start0, rowScatter_window0] at e0 h0
      rw [rowScatter_start1, rowScatter_window1] at e1
      refine ⟨by omega, Fin.ext (by omega)⟩
    · exact absurd hres (by simp)
  · rintro ⟨ht, hq'⟩
    unfold ScatterDims.resultIdx?
    have h : ∀ a : Fin 2, 0 ≤ (rowScatter N C n wf).start (ix2 e q) idx a + (rowScatter N C n wf).window (ix2 e q) a
        ∧ (rowScatter N C n wf).start (ix2 e q) idx a + (rowScatter N C n wf).window (ix2 e q) a < (⟨2, ![N, C]⟩ : Shape).size a := by
      intro a
      match a with
      | ⟨0, h0⟩ =>
        rw [rowScatter_start0, rowScatter_window0, ht]
        show 0 ≤ ((i 0).val : Int) + ((0 : Nat) : Int) ∧ ((i 0).val : Int) + ((0 : Nat) : Int) < (N : Int)
        omega
      | ⟨1, h1⟩ =>
        rw [rowScatter_start1, rowScatter_window1]
        show 0 ≤ (0 : Int) + (q.val : Int) ∧ (0 : Int) + (q.val : Int) < (C : Int)
        omega
    rw [dif_pos h]
    congr 1
    funext a
    apply Fin.ext
    match a with
    | ⟨0, h0⟩ =>
      show ((rowScatter N C n wf).start (ix2 e q) idx ⟨0, h0⟩ + (rowScatter N C n wf).window (ix2 e q) ⟨0, h0⟩).toNat = (i ⟨0, h0⟩).val
      rw [rowScatter_start0, rowScatter_window0, ht]
      show (((i 0).val : Int) + ((0 : Nat) : Int)).toNat = (i 0).val
      omega
    | ⟨1, h1⟩ =>
      show ((rowScatter N C n wf).start (ix2 e q) idx ⟨1, h1⟩ + (rowScatter N C n wf).window (ix2 e q) ⟨1, h1⟩).toNat = (i ⟨1, h1⟩).val
      rw [rowScatter_start1, rowScatter_window1, hq']
      show ((0 : Int) + ((i 1).val : Int)).toNat = (i 1).val
      omega

end

/-- THE ROW SCATTER's landing place. `table.at[idx].add(updates)` over a rank-2 table: the rows an inserted, scattered
    axis, the columns a window axis taken whole, the index vector on axis 1 of the `[n, 1]` column of positions. Update
    element `(e, q)` lands on table element `i` exactly when the position `idx e`, read signed and NOT clamped, is `i`'s
    row and `q` is `i`'s column; a position outside `[0, N)` lands nowhere. -/
theorem resultIdx_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (q : Fin C) (i : (⟨2, ![N, C]⟩ : Shape).Idx) :
    d.resultIdx? (ix2 e q) idx = some i ↔ (idx (ixP e)).toInt = ((i 0).val : Int) ∧ q = i 1 := by
  obtain ⟨uw, iw, sd, ivd, wf⟩ := d
  dsimp only at huw hiw hsd hivd
  subst huw hiw hsd hivd
  exact rowScatter_resultIdx wf idx e q i

end Idealize.ShloMosaic.RowIndexed
-- ==== Proof.LibScatterAddRows.lean ====
/-
  A float scatter-add of ROWS read at an element, at the ideal instance (floats are extended reals).

  `table.at[idx].add(updates)` over a rank-2 table `[N, C]`, an `[R, 1]` column of positions and `[R, C]` updates
  (`jax.ops.segment_sum(updates, idx, num_segments = N)` when the table is zero): update row `e` is added to table
  row `idx e`, the position read signed and NOT clamped, so a position outside `[0, N)` contributes nothing. At the
  ideal instance the colliding updates are summed exactly, so the result at `(n, q)` is the table's entry plus the
  sum, over the update rows `e` whose position is `n`, of `updates (e, q)` (`scatterAdd_rows_apply`).

  The columns do not interact: the sum at `(n, q)` only reads column `q` of the updates. Hence scatter-adding a wide
  array and then keeping the block of columns `[off, off + C')` is scatter-adding that block of the updates onto that
  block of the table (`scatterAdd_rows_slice`); in particular, when the updates are a column-wise concatenation and the
  block is one piece's columns, it is scatter-adding that piece alone (`scatterAdd_rows_concat_slice`).
-/
import proofs.«408775_j4844723110183_2_alg».proof.Proof.LibRowIndexed
import Idealize.ShloMosaic.PureOps.Ideal
import Idealize.ShloMosaic.Lib.ValueIdx
import Idealize.ShloMosaic.Lib.Pipeline.Value
import Mathlib.Algebra.BigOperators.Group.Finset.Basic

noncomputable section

open scoped BigOperators

namespace Idealize.ShloMosaic.ScatterAddRows

open Idealize.ShloMosaic Idealize.ShloMosaic.ValueIdx Idealize.ShloMosaic.StableHlo.Predicate
open Idealize.ShloMosaic.RowIndexed

/-- THE ROW SCATTER-ADD AT AN ELEMENT. The rows an inserted, scattered axis, the columns a window axis taken whole,
    the index vector on axis 1 of the `[R, 1]` column of positions: the result at `(n, q)` is the operand's entry plus
    the sum of `upd (e, q)` over the update rows `e` whose position, read as a signed integer, is `n`. -/
theorem scatterAdd_rows_apply {φ : FTy} {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![R, 1]⟩ w) (upd : FVec Ideal ⟨2, ![R, C]⟩ φ) (n : Fin N) (q : Fin C) :
    Host.scatterAdd d x idx upd (ix2 n q)
      = x (ix2 n q) + ∑ e ∈ Finset.univ.filter (fun e : Fin R => (idx (ixP e)).toInt = (n.val : Int)), upd (ix2 e q) := by
  show Ideal.hostScatterAdd d x idx upd (ix2 n q) = _
  unfold Ideal.hostScatterAdd
  congr 1
  -- an update element (a, b) lands on (n, q) exactly when its row's position is n and its column is q
  have hland : ∀ (a : Fin R) (b : Fin C),
      d.resultIdx? (ix2 a b) idx = some (ix2 n q) ↔ (idx (ixP a)).toInt = (n.val : Int) ∧ b = q :=
    fun a b => resultIdx_rows d huw hiw hsd hivd idx a b (ix2 n q)
  -- so the update elements that land on (n, q) are the (e, q) with position n: re-index the sum along e
  refine Finset.sum_nbij' (fun j => (idxEquiv2 j).1) (fun e => ix2 e q) ?_ ?_ ?_ ?_ ?_
  · intro j hj
    obtain ⟨a, b, rfl⟩ : ∃ a b, j = ix2 a b := ⟨j 0, j 1, eq_ix2 j⟩
    have hj' := (hland a b).mp (Finset.mem_filter.mp hj).2
    exact Finset.mem_filter.mpr ⟨Finset.mem_univ _, hj'.1⟩
  · intro e he
    exact Finset.mem_filter.mpr ⟨Finset.mem_univ _, (hland e q).mpr ⟨(Finset.mem_filter.mp he).2, rfl⟩⟩
  · intro j hj
    obtain ⟨a, b, rfl⟩ : ∃ a b, j = ix2 a b := ⟨j 0, j 1, eq_ix2 j⟩
    have hb : b = q := ((hland a b).mp (Finset.mem_filter.mp hj).2).2
    subst hb
    rfl
  · intro e _
    rfl
  · intro j hj
    obtain ⟨a, b, rfl⟩ : ∃ a b, j = ix2 a b := ⟨j 0, j 1, eq_ix2 j⟩
    have hb : b = q := ((hland a b).mp (Finset.mem_filter.mp hj).2).2
    subst hb
    rfl

/-- THE COLUMNS OF A ROW SCATTER-ADD DO NOT INTERACT. Scatter-adding `[R, C]` updates onto an `[N, C]` table and keeping
    the columns `[off, off + C')` is scatter-adding, with the same positions, the updates' columns `[off, off + C')`
    (`hu`) onto the table's columns `[off, off + C')` (`hx`). -/
theorem scatterAdd_rows_slice {φ : FTy} {N C C' R w off : Nat}
    (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (d' : ScatterDims ⟨2, ![N, C']⟩ ⟨2, ![R, 1]⟩ ⟨2, ![R, C']⟩)
    (huw' : d'.updateWindowDims = [1]) (hiw' : d'.insertedWindowDims = [0]) (hsd' : d'.scatterDimsToOperandDims = [0])
    (hivd' : d'.indexVectorDim = 1)
    (x : FVec Ideal ⟨2, ![N, C]⟩ φ) (x' : FVec Ideal ⟨2, ![N, C']⟩ φ) (idx : IVec ⟨2, ![R, 1]⟩ w)
    (upd : FVec Ideal ⟨2, ![R, C]⟩ φ) (upd' : FVec Ideal ⟨2, ![R, C']⟩ φ)
    (hsl : (⟨2, ![N, C]⟩ : Shape).Slices ![0, off] ⟨2, ![N, C']⟩)
    (hx : ∀ (n : Fin N) (q : Fin C') (k : Fin C), k.val = off + q.val → x' (ix2 n q) = x (ix2 n k))
    (hu : ∀ (e : Fin R) (q : Fin C') (k : Fin C), k.val = off + q.val → upd' (ix2 e q) = upd (ix2 e k)) :
    extractStridedSlice ⟨2, ![N, C']⟩ ![0, off] (Host.scatterAdd d x idx upd) hsl = Host.scatterAdd d' x' idx upd' := by
  funext j
  obtain ⟨n, q, rfl⟩ : ∃ n q, j = ix2 n q := ⟨j 0, j 1, eq_ix2 j⟩
  have hk : off + q.val < C := by
    have h := hsl.2 (1 : Fin 2)
    have hq := q.isLt
    show off + q.val < C
    have h' : off + C' ≤ C := h
    omega
  rw [extractStridedSlice_apply ![0, off] _ hsl (ix2 n q) (ix2 n ⟨off + q.val, hk⟩) (fun a => by
    match a with
    | ⟨0, _⟩ => show n.val = 0 + n.val; omega
    | ⟨1, _⟩ => rfl)]
  rw [scatterAdd_rows_apply d huw hiw hsd hivd, scatterAdd_rows_apply d' huw' hiw' hsd' hivd']
  rw [hx n q ⟨off + q.val, hk⟩ rfl]
  congr 1
  exact Finset.sum_congr rfl (fun e _ => (hu e q ⟨off + q.val, hk⟩ rfl).symm)

/-- SCATTER-ADDING A COLUMN-WISE CONCATENATION AND KEEPING ONE PIECE'S COLUMNS is scatter-adding that piece alone. The
    updates are pieces laid side by side along axis 1; piece `k`, of `C'` columns, starts at column `off` (`hpre`: the
    pieces before it have `off` columns together). Keeping the columns `[off, off + C')` of the scatter-add of the whole
    concatenation onto `x` is the scatter-add of piece `k` onto the same columns of `x` (`hx`). -/
theorem scatterAdd_rows_concat_slice {φ : FTy} {N C C' R w off : Nat}
    (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (d' : ScatterDims ⟨2, ![N, C']⟩ ⟨2, ![R, 1]⟩ ⟨2, ![R, C']⟩)
    (huw' : d'.updateWindowDims = [1]) (hiw' : d'.insertedWindowDims = [0]) (hsd' : d'.scatterDimsToOperandDims = [0])
    (hivd' : d'.indexVectorDim = 1)
    (x : FVec Ideal ⟨2, ![N, C]⟩ φ) (x' : FVec Ideal ⟨2, ![N, C']⟩ φ) (idx : IVec ⟨2, ![R, 1]⟩ w)
    (xs : List ((s : Shape) × (s.Idx → Ideal φ)))
    (hcat : Shape.Concatenates (xs.map (·.1)) ⟨2, ![R, C]⟩ 1)
    (k : Nat) (hk : k < xs.length) (upd' : FVec Ideal ⟨2, ![R, C']⟩ φ) (hxk : xs[k] = ⟨⟨2, ![R, C']⟩, upd'⟩)
    (hpre : (((xs.take k).map (·.1)).map fun s : Shape =>
      if h : s.rank = (⟨2, ![R, C]⟩ : Shape).rank then s.size ((1 : Fin (⟨2, ![R, C]⟩ : Shape).rank).cast h.symm) else 0).sum = off)
    (hsl : (⟨2, ![N, C]⟩ : Shape).Slices ![0, off] ⟨2, ![N, C']⟩)
    (hx : ∀ (n : Fin N) (q : Fin C') (c : Fin C), c.val = off + q.val → x' (ix2 n q) = x (ix2 n c)) :
    extractStridedSlice ⟨2, ![N, C']⟩ ![0, off] (Host.scatterAdd d x idx (concatenate ⟨2, ![R, C]⟩ 1 xs hcat)) hsl
      = Host.scatterAdd d' x' idx upd' := by
  refine scatterAdd_rows_slice d huw hiw hsd hivd d' huw' hiw' hsd' hivd' x x' idx _ upd' hsl hx ?_
  intro e q c hc
  -- column c = off + q of the concatenation lies in piece k, at that piece's column q
  refine (concatenate_apply_piece (1 : Fin 2) xs hcat (ix2 e c) k hk ⟨2, ![R, C']⟩ upd' hxk rfl off hpre (ix2 e q) ?_ ?_).symm
  · intro b hb
    match b with
    | ⟨0, _⟩ => rfl
    | ⟨1, _⟩ => exact absurd rfl hb
  · show off + q.val = c.val
    omega

end Idealize.ShloMosaic.ScatterAddRows

end
-- ==== Proof.LibScatterVec.lean ====
/-
  A scatter into a vector at a column of positions, read at an index.

  `x.at[idx].add(u)` over a rank-1 operand `x : [N]`, positions `idx : [n, 1]` and updates `u : [n]` (no window
  axes: the operand's one axis is inserted and start-indexed, the index vector on axis 1). Update `p` lands on
  element `k` exactly when position `p`, read signed, is `k`; a position outside `[0, N)` lands nowhere. On the
  extended reals the accumulating scatter is the operand's element plus the sum of the updates landing on it.
-/
import Idealize.ShloMosaic.PureOps
import Idealize.ShloMosaic.PureOps.Ideal
import Idealize.ShloMosaic.Lib.ValueIdx

noncomputable section

namespace Cert.Lib.ScatterVec

open Idealize.ShloMosaic Idealize.ShloMosaic.ValueIdx

/-- Update `p` lands on element `k` iff its position, read signed, is `k`. -/
theorem resultIdx?_eq_some_iff {N n w : Nat} (d : ScatterDims ⟨1, ![N]⟩ ⟨2, ![n, 1]⟩ ⟨1, ![n]⟩)
    (hins : d.insertedWindowDims = [0]) (hsd : d.scatterDimsToOperandDims = [0]) (hivd : d.indexVectorDim = 1)
    (idx : IVec ⟨2, ![n, 1]⟩ w) (p : Fin n) (k : Fin N) :
    d.resultIdx? (ix1 p) idx = some (ix1 k) ↔ (idx (ix2 p (0 : Fin 1))).toInt = (k.val : Int) := by
  have hk : ∀ a : Fin (⟨1, ![N]⟩ : Shape).rank, a ∉ d.sKept := by
    intro a
    have ha : a = 0 := Subsingleton.elim _ _
    subst ha
    simp [ScatterDims.sKept, Shape.kept, hins]
  have hm : (0 : Fin (⟨1, ![N]⟩ : Shape).rank) ∈ d.scatterDimsToOperandDims := by
    rw [hsd]; exact List.mem_singleton.mpr rfl
  have hcoord : ∀ X : Fin (⟨1, ![n]⟩ : Shape).rank, ((ix1 p : (⟨1, ![n]⟩ : Shape).Idx) X).val = p.val := fun X => by
    have hX : X = 0 := Subsingleton.elim _ _
    subst hX; rfl
  have hwin : ∀ a, d.window (ix1 p) a = 0 := fun a => by
    unfold ScatterDims.window; rw [dif_neg (hk a)]
  have hstart : ∀ a, d.start (ix1 p) idx a = (idx (ix2 p (0 : Fin 1))).toInt := fun a => by
    have ha : a = 0 := Subsingleton.elim _ _
    subst ha
    unfold ScatterDims.start
    rw [dif_pos hm]
    congr 2
    funext b
    match b with
    | ⟨0, _⟩ =>
      -- axis 0 is not the index vector's axis: it carries the update's scatter coordinate
      unfold ScatterDims.siIdx
      rw [dif_neg (by rw [hivd]; exact Nat.zero_ne_one)]
      unfold ScatterDims.siCoord
      apply Fin.ext
      rw [Fin.val_cast]
      exact hcoord _
    | ⟨1, _⟩ =>
      -- axis 1 is the index vector's axis: it carries the component's number, the place of operand axis 0 in the map
      unfold ScatterDims.siIdx
      rw [dif_pos (by rw [hivd])]
      apply Fin.ext
      show List.idxOf (0 : Fin (⟨1, ![N]⟩ : Shape).rank) d.scatterDimsToOperandDims = 0
      rw [hsd]; simp
  unfold ScatterDims.resultIdx?
  split
  · -- in range: the landing index is the one with coordinate (start + 0).toNat
    rename_i h
    have h0 := h 0
    rw [hstart, hwin] at h0
    rw [Option.some.injEq]
    constructor
    · intro hf
      have hv : (d.start (ix1 p) idx 0 + (d.window (ix1 p) 0 : Nat)).toNat = k.val :=
        congrArg (fun f : (⟨1, ![N]⟩ : Shape).Idx => (f 0).val) hf
      rw [hstart, hwin] at hv
      omega
    · intro hv
      funext a
      have ha : a = 0 := Subsingleton.elim _ _
      subst ha
      apply Fin.ext
      show (d.start (ix1 p) idx 0 + (d.window (ix1 p) 0 : Nat)).toNat = k.val
      rw [hstart, hwin, hv]
      omega
  · -- out of range: nothing lands, and the position is no element's number
    rename_i h
    constructor
    · intro hf
      cases hf
    · intro hv
      exfalso
      apply h
      intro a
      have ha : a = 0 := Subsingleton.elim _ _
      subst ha
      rw [hstart, hwin, hv]
      have hN : (⟨1, ![N]⟩ : Shape).size 0 = N := rfl
      rw [hN]
      have := k.isLt
      omega

/-- The accumulating scatter on the extended reals, read at element `k`. -/
theorem scatterAdd_apply {N n w : Nat} {φ : FTy} (d : ScatterDims ⟨1, ![N]⟩ ⟨2, ![n, 1]⟩ ⟨1, ![n]⟩)
    (hins : d.insertedWindowDims = [0]) (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (k : Fin N) :
    Host.scatterAdd (F := Ideal) d x idx upd (ix1 k)
      = x (ix1 k) + ∑ p : Fin n, if (idx (ix2 p (0 : Fin 1))).toInt = (k.val : Int) then upd (ix1 p) else 0 := by
  -- the accumulating scatter at an element: the element plus the sum of the updates landing on it
  show x (ix1 k) + ∑ j ∈ Finset.univ.filter (fun j => d.resultIdx? j idx = some (ix1 k)), upd j = _
  congr 1
  rw [Finset.sum_filter]
  -- the update indices are the numbers below n, through their one coordinate
  let e : (⟨1, ![n]⟩ : Shape).Idx ≃ Fin n :=
    ⟨fun j => j 0, fun p => ix1 p, fun j => (eq_ix1 j).symm, fun _ => rfl⟩
  refine Fintype.sum_equiv e _ _ (fun j => ?_)
  obtain ⟨p, rfl⟩ : ∃ p : Fin n, j = ix1 p := ⟨j 0, eq_ix1 j⟩
  exact if_congr (resultIdx?_eq_some_iff d hins hsd hivd idx p k) rfl rfl

end Cert.Lib.ScatterVec

end
-- ==== Proof.Spec.lean ====
/-
  The loss both programs compute, written once over plain functions on the extended reals.

  A point `i` (of 1,000,000) has coordinates `z i d` (`d` below 128) and a block word `ids i`; it belongs to block `b`
  when that word, read as a signed integer, is `b`. Per block: the number of its points `cnt`, the sum of its points
  `sm`, the sum of its points each divided by its own clamped norm `us`; the block's centre `cen` is `sm` over
  `max cnt 1`, and its clamped norm `cnrm`. The sum over a block's points of the cosine between the point and the centre
  is written twice: `cosR`, point by point (the reference's order), and `cosOf`, the centre paired with `us` once per block
  (the kernel's order). The loss averages `1 - cos / max cnt 1` over the blocks with more than one point.

  The kernel reaches the per-block sums tile by tile: 2 halves of 100 tiles of 5000 rows, a row counted for lane `b` (of
  128) when its word is `b` and `b` is below 100 (`ohw`); `kC`, `kS`, `kU` are one half's sums.
-/
import Idealize.ShloMosaic.PureOps.Ideal
import Idealize.ShloMosaic.PureOps.Ideal.Laws
import Idealize.ShloMosaic.Lib.ValueIdx

noncomputable section

open scoped BigOperators

namespace Cert.SegCos

open Idealize.ShloMosaic

abbrev Pts := Fin 1000000
abbrev Z := Pts → Fin 128 → EReal
abbrev Ids := Pts → BitVec 32

/-- The norm clamp 1e-8 (as f32) and the constant one, as the extended reals their words denote. -/
def epsE : EReal := Ideal.ofBits .f32 0x322BCC77#32
def oneE : EReal := Ideal.ofBits .f32 0x3F800000#32

/-- Point `i` belongs to block `b`: its word, read signed, is `b`. -/
def hit (ids : Ids) (i : Pts) (b : ℕ) : Prop := (ids i).toInt = (b : Int)

instance (ids : Ids) (i : Pts) (b : ℕ) : Decidable (hit ids i b) := by unfold hit; infer_instance

/-- The number of points of block `b`. -/
def cnt (ids : Ids) (b : ℕ) : EReal := ∑ i : Pts, if hit ids i b then oneE else 0
/-- The sum of block `b`'s points, coordinate `d`. -/
def sm (z : Z) (ids : Ids) (b : ℕ) (d : Fin 128) : EReal := ∑ i : Pts, if hit ids i b then z i d else 0
/-- A point's norm, clamped from below. -/
def zn (z : Z) (i : Pts) : EReal := max (Ideal.sqrt (∑ d : Fin 128, z i d * z i d)) epsE
/-- The sum of block `b`'s points each over its clamped norm, coordinate `d`. -/
def us (z : Z) (ids : Ids) (b : ℕ) (d : Fin 128) : EReal :=
  ∑ i : Pts, if hit ids i b then Ideal.div (z i d) (zn z i) else 0

/-- A block's centre from its count and its sum. -/
def cenOf (C : EReal) (S : Fin 128 → EReal) (d : Fin 128) : EReal := Ideal.div (S d) (max C oneE)
/-- The centre's clamped norm. -/
def cnrmOf (C : EReal) (S : Fin 128 → EReal) : EReal := max (Ideal.sqrt (∑ d : Fin 128, cenOf C S d * cenOf C S d)) epsE
/-- The block's cosine sum, the centre paired once with the block's sum of unit points. -/
def cosOf (C : EReal) (S U : Fin 128 → EReal) : EReal := Ideal.div (∑ d : Fin 128, U d * cenOf C S d) (cnrmOf C S)

/-- The block's cosine sum point by point: each point of the block paired with the centre, over the two clamped norms. -/
def cosR (z : Z) (ids : Ids) (b : ℕ) : EReal :=
  ∑ i : Pts, if hit ids i b then
    Ideal.div (∑ d : Fin 128, z i d * cenOf (cnt ids b) (sm z ids b) d) (zn z i * cnrmOf (cnt ids b) (sm z ids b)) else 0

/-- A block's term of the loss from its count `c` and cosine sum `s`: `1 - s / max c 1` when `c > 1`, else `0`. -/
def term (c s : EReal) : EReal :=
  Scalar.select (FloatOps.cmpf (F := Ideal) (φ := .f32) .ogt c oneE) (oneE - Ideal.div s (max c oneE)) 0
/-- Whether the block counts, as a number: `1` when `c > 1`, else `0`. -/
def vld (c : EReal) : EReal := FloatOps.uitofp (F := Ideal) (w := 1) .f32 (FloatOps.cmpf (F := Ideal) (φ := .f32) .ogt c oneE)

/-- The loss from the total of the terms and the number of counted blocks. -/
def lossOf (tot nv : EReal) : EReal := Ideal.div tot (max nv oneE)
/-- The loss over `n` lanes with counts `C` and cosine sums `cs`. -/
def lossLanes {n : ℕ} (C cs : Fin n → EReal) : EReal := lossOf (∑ b : Fin n, term (C b) (cs b)) (∑ b : Fin n, vld (C b))

/-- The reference's loss: 100 blocks, cosine sums point by point. -/
def lossR (z : Z) (ids : Ids) : EReal := lossLanes (n := 100) (fun b => cnt ids b.val) (fun b => cosR z ids b.val)

/-! ### The kernel's tiles -/

/-- Lane `b`'s mask on a row whose word is `w`: the word is `b` and `b` is a real block. -/
def ohw (w : BitVec 32) (b : Fin 128) : EReal := if w = BitVec.ofNat 32 b.val ∧ b.val < 100 then 1 else 0
/-- Row `r` of tile `n`. -/
def rowOf (n : Fin 200) (r : Fin 5000) : Pts := ⟨n.val * 5000 + r.val, by have := n.isLt; have := r.isLt; omega⟩
/-- Tile `t` of half `cc`. -/
def pt (cc : Fin 2) (t : Fin 100) : Fin 200 := ⟨100 * cc.val + t.val, by have := cc.isLt; have := t.isLt; omega⟩

/-- One tile's contribution to lane `b`: its count, its sum and its sum of unit rows. -/
def tileC (ids : Ids) (n : Fin 200) (b : Fin 128) : EReal := ∑ r : Fin 5000, ohw (ids (rowOf n r)) b
def tileS (z : Z) (ids : Ids) (n : Fin 200) (b d : Fin 128) : EReal :=
  ∑ r : Fin 5000, ohw (ids (rowOf n r)) b * z (rowOf n r) d
def tileU (z : Z) (ids : Ids) (n : Fin 200) (b d : Fin 128) : EReal :=
  ∑ r : Fin 5000, ohw (ids (rowOf n r)) b * Ideal.div (z (rowOf n r) d) (zn z (rowOf n r))

/-- Half `cc`'s sums over its 100 tiles. -/
def kC (ids : Ids) (cc : Fin 2) (b : Fin 128) : EReal := ∑ t : Fin 100, tileC ids (pt cc t) b
def kS (z : Z) (ids : Ids) (cc : Fin 2) (b d : Fin 128) : EReal := ∑ t : Fin 100, tileS z ids (pt cc t) b d
def kU (z : Z) (ids : Ids) (cc : Fin 2) (b d : Fin 128) : EReal := ∑ t : Fin 100, tileU z ids (pt cc t) b d

/-- The kernel's loss: 128 lanes, each from the two halves' sums, the centre paired once per lane. -/
def lossK (z : Z) (ids : Ids) : EReal :=
  lossLanes (n := 128) (fun b => ∑ cc : Fin 2, kC ids cc b)
    (fun b => cosOf (∑ cc : Fin 2, kC ids cc b) (fun d => ∑ cc : Fin 2, kS z ids cc b d) (fun d => ∑ cc : Fin 2, kU z ids cc b d))

end Cert.SegCos

end
-- ==== Proof.RefValue.lean ====
/-
  The reference program's result is the loss `lossR` of its two arguments: its three accumulating scatters are the
  per-block count, sum and cosine sum (a word outside `[0, 100)` lands nowhere); its gather hands each point of block
  `b` the centre of block `b`; the rest is the loss's formula lane by lane.
-/
import proofs.«408775_j4844723110183_2_alg».proof.Proof.RefReadP
import proofs.«408775_j4844723110183_2_alg».proof.Proof.LibRowIndexed
import proofs.«408775_j4844723110183_2_alg».proof.Proof.LibScatterAddRows
import proofs.«408775_j4844723110183_2_alg».proof.Proof.LibScatterVec
import proofs.«408775_j4844723110183_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.ReadP Cert.SegCos

open Idealize.ShloMosaic.StableHlo.Predicate

/-- The two argument arrays' types: the points' coordinates and the points' block words. -/
abbrev PtsBuf := (⟨S1000000x128, .f32⟩ : BufTy).Contents (Elt Ideal)
abbrev WordsBuf := (⟨S1000000, .i32⟩ : BufTy).Contents (Elt Ideal)

/-- The points and the block words as plain functions of the point's number. -/
abbrev zOf (x0 : PtsBuf) : Z := fun p d => x0 (ix2 p d)
abbrev idsOf (x1 : WordsBuf) : Ids := fun p => x1 (ix1 p)

/-! ### The index arithmetic of the layout stages -/

/-- A column of positions read at row `p` reads the word of point `p`. -/
theorem col2 (p : Fin 1000000) : idx_main_v2 (ix2 p (0 : Fin 1)) = ix1 p := by
  funext a; match a with | ⟨0, _⟩ => rfl
theorem col34 (p : Fin 1000000) : idx_main_v34 (ix2 p (0 : Fin 1)) = ix1 p := by
  funext a; match a with | ⟨0, _⟩ => rfl
theorem col5 (p : Fin 1000000) : idx_main_v5 (ixP p) = ix1 p := by
  funext a; match a with | ⟨0, _⟩ => rfl
theorem col17 (p : Fin 1000000) : idx_main_v17 (ixP p) = ix1 p := by
  funext a; match a with | ⟨0, _⟩ => rfl

/-- The two broadcasts of the clamped counts over the 128 coordinates read block `b`'s count. -/
theorem lane910 (b : Fin 100) (d : Fin 128) : idx_main_v9 (idx_main_v10 (ix2 b d)) = ix1 b := by
  funext a; match a with | ⟨0, _⟩ => rfl

/-- Row `p`'s `k`-th summand is the entry `(p, k)`. -/
theorem row20 (p : Fin 1000000) (k : Fin 128) : idx_main_v20 (ix1 p) k = ix2 p k := by
  funext a; match a with | ⟨0, _⟩ => rfl | ⟨1, _⟩ => rfl
theorem row22 (p : Fin 1000000) (k : Fin 128) : idx_main_v22 (ix1 p) k = ix2 p k := by
  funext a; match a with | ⟨0, _⟩ => rfl | ⟨1, _⟩ => rfl
theorem row27 (p : Fin 1000000) (k : Fin 128) : idx_main_v27 (ix1 p) k = ix2 p k := by
  funext a; match a with | ⟨0, _⟩ => rfl | ⟨1, _⟩ => rfl

/-- The indices of a 100-vector are the numbers below 100. -/
def laneEquiv : S100.Idx ≃ Fin 100 :=
  ⟨fun j => j 0, fun b => ix1 b, fun j => (eq_ix1 j).symm, fun _ => rfl⟩

/-! ### The per-block count and sum -/

/-- The first accumulating scatter counts block `b`'s points: it starts from zero and adds one per point whose word is `b`. -/
theorem counts_eq (x1 : WordsBuf) (b : Fin 100) :
    val_main_v3 (F := Ideal) x1 (ix1 b) = cnt (idsOf x1) b.val := by
  unfold val_main_v3
  rw [Cert.Lib.ScatterVec.scatterAdd_apply _ rfl rfl rfl]
  have h1 : val_main_v1 (F := Ideal) (ix1 b) = 0 := by
    rw [val_main_v1_apply, val_main_cst_0_apply]; exact Ideal.ofBits_zero_f32
  rw [h1, zero_add]
  unfold cnt
  refine Finset.sum_congr rfl (fun p _ => ?_)
  rw [val_main_v2_apply, col2, val_main_v0_apply, val_main_cst_apply]
  exact if_congr Iff.rfl rfl rfl

/-- The second accumulating scatter sums block `b`'s points, coordinate by coordinate. -/
theorem sums_eq (x0 : PtsBuf) (x1 : WordsBuf) (b : Fin 100) (d : Fin 128) :
    val_main_v6 (F := Ideal) x0 x1 (ix2 b d) = sm (zOf x0) (idsOf x1) b.val d := by
  unfold val_main_v6
  rw [Idealize.ShloMosaic.ScatterAddRows.scatterAdd_rows_apply _ rfl rfl rfl rfl]
  have h1 : val_main_v4 (F := Ideal) (ix2 b d) = 0 := by
    rw [val_main_v4_apply, val_main_cst_1_apply]; exact Ideal.ofBits_zero_f32
  rw [h1, zero_add, Finset.sum_filter]
  unfold sm
  refine Finset.sum_congr rfl (fun e _ => ?_)
  rw [val_main_v5_apply, col5]
  exact if_congr Iff.rfl rfl rfl

/-- The centres: each block's sum over its count clamped from below by one. -/
theorem centers_eq (x0 : PtsBuf) (x1 : WordsBuf) (b : Fin 100) (d : Fin 128) :
    val_main_v11 (F := Ideal) x0 x1 (ix2 b d)
      = cenOf (cnt (idsOf x1) b.val) (sm (zOf x0) (idsOf x1) b.val) d := by
  rw [val_main_v11_apply, val_main_v10_apply, val_main_v9_apply, val_main_v8_apply, lane910 b d,
    val_main_v7_apply, val_main_cst_2_apply, counts_eq, sums_eq]
  rfl

/-! ### The gather: a point of block `b` is handed block `b`'s centre -/

/-- A point whose word is `b`, a real block, is handed row `b`: the word is not negative, so the wrap-around of negative
    words leaves it alone, and it is below 100, so the clamp into the table leaves it alone too. -/
theorem gatherRow (x1 : WordsBuf) (p : Fin 1000000) (b : ℕ) (hb : b < 100) (h : hit (idsOf x1) p b) :
    min (val_main_v17 (F := Ideal) x1 (ixP p)).toInt.toNat (100 - 1) = b := by
  have h' : (x1 (ix1 p)).toInt = (b : Int) := h
  have hslt : (x1 (ix1 p)).slt 0#32 = false := by
    unfold BitVec.slt
    rw [decide_eq_false_iff_not, h', BitVec.toInt_zero]
    omega
  have hc : IntOp.cmpi .slt (x1 (ix1 p)) 0#32 = 0#1 := by
    show BitVec.ofBool ((x1 (ix1 p)).slt 0#32) = 0#1
    rw [hslt]; rfl
  rw [val_main_v17_apply, col17, val_main_v16_apply, val_main_v13_apply, val_main_v12_apply, val_main_c_apply, hc,
    select_zero, h']
  omega

theorem gathered_eq (x0 : PtsBuf) (x1 : WordsBuf) (p : Fin 1000000) (d : Fin 128) (b : Fin 100) (h : hit (idsOf x1) p b.val) :
    val_main_v18 (F := Ideal) x0 x1 (ix2 p d)
      = cenOf (cnt (idsOf x1) b.val) (sm (zOf x0) (idsOf x1) b.val) d := by
  unfold val_main_v18
  refine (Idealize.ShloMosaic.RowIndexed.gather_rows _ rfl rfl rfl rfl rfl _ _ p d (by decide)).trans ?_
  exact (congrArg (fun r : Fin 100 => val_main_v11 (F := Ideal) x0 x1 (ix2 r d))
    (Fin.ext (gatherRow x1 p b.val b.isLt h))).trans (centers_eq x0 x1 b d)

/-! ### The cosine of a point of block `b` with its centre -/

theorem dot_eq (x0 : PtsBuf) (x1 : WordsBuf) (p : Fin 1000000) (b : Fin 100) (h : hit (idsOf x1) p b.val) :
    val_main_v20 (F := Ideal) x0 x1 (ix1 p)
      = ∑ d : Fin 128, zOf x0 p d * cenOf (cnt (idsOf x1) b.val) (sm (zOf x0) (idsOf x1) b.val) d := by
  rw [val_main_v20_apply, val_main_cst_4_apply]
  simp only [Ideal.ofBits_def, Ideal.ofBits_zero_f32, zero_add]
  refine Finset.sum_congr rfl (fun k _ => ?_)
  rw [row20, val_main_v19_apply, gathered_eq x0 x1 p k b h]
  rfl

theorem sq_eq (x0 : PtsBuf) (p : Fin 1000000) :
    val_main_v22 (F := Ideal) x0 (ix1 p) = ∑ d : Fin 128, zOf x0 p d * zOf x0 p d := by
  rw [val_main_v22_apply, val_main_cst_5_apply]
  simp only [Ideal.ofBits_def, Ideal.ofBits_zero_f32, zero_add]
  refine Finset.sum_congr rfl (fun k _ => ?_)
  rw [row22, val_main_v21_apply]
  rfl

theorem znorm_eq (x0 : PtsBuf) (p : Fin 1000000) : val_main_v25 (F := Ideal) x0 (ix1 p) = zn (zOf x0) p := by
  rw [val_main_v25_apply, val_main_v23_apply, sq_eq, val_main_v24_apply, val_main_cst_6_apply]
  rfl

theorem csq_eq (x0 : PtsBuf) (x1 : WordsBuf) (p : Fin 1000000) (b : Fin 100) (h : hit (idsOf x1) p b.val) :
    val_main_v27 (F := Ideal) x0 x1 (ix1 p)
      = ∑ d : Fin 128, cenOf (cnt (idsOf x1) b.val) (sm (zOf x0) (idsOf x1) b.val) d
          * cenOf (cnt (idsOf x1) b.val) (sm (zOf x0) (idsOf x1) b.val) d := by
  rw [val_main_v27_apply, val_main_cst_7_apply]
  simp only [Ideal.ofBits_def, Ideal.ofBits_zero_f32, zero_add]
  refine Finset.sum_congr rfl (fun k _ => ?_)
  rw [row27, val_main_v26_apply, gathered_eq x0 x1 p k b h]
  rfl

theorem cnorm_eq (x0 : PtsBuf) (x1 : WordsBuf) (p : Fin 1000000) (b : Fin 100) (h : hit (idsOf x1) p b.val) :
    val_main_v30 (F := Ideal) x0 x1 (ix1 p) = cnrmOf (cnt (idsOf x1) b.val) (sm (zOf x0) (idsOf x1) b.val) := by
  rw [val_main_v30_apply, val_main_v28_apply, csq_eq x0 x1 p b h, val_main_v29_apply, val_main_cst_8_apply]
  generalize cnt (idsOf x1) b.val = C
  generalize sm (zOf x0) (idsOf x1) b.val = S
  simp only [Ideal.maximumf_def, Ideal.hostUnary_sqrt_def, Ideal.ofBits_def]
  rfl

theorem cos_eq (x0 : PtsBuf) (x1 : WordsBuf) (p : Fin 1000000) (b : Fin 100) (h : hit (idsOf x1) p b.val) :
    val_main_v32 (F := Ideal) x0 x1 (ix1 p)
      = Ideal.div (∑ d : Fin 128, zOf x0 p d * cenOf (cnt (idsOf x1) b.val) (sm (zOf x0) (idsOf x1) b.val) d)
          (zn (zOf x0) p * cnrmOf (cnt (idsOf x1) b.val) (sm (zOf x0) (idsOf x1) b.val)) := by
  rw [val_main_v32_apply, val_main_v31_apply, dot_eq x0 x1 p b h, znorm_eq, cnorm_eq x0 x1 p b h]
  rfl

/-- The third accumulating scatter sums, over block `b`'s points, the cosine of the point with block `b`'s centre. A
    point of another block, or one whose word names no block, adds nothing, whatever the gather handed it. -/
theorem cossum_eq (x0 : PtsBuf) (x1 : WordsBuf) (b : Fin 100) :
    val_main_v35 (F := Ideal) x0 x1 (ix1 b) = cosR (zOf x0) (idsOf x1) b.val := by
  unfold val_main_v35
  rw [Cert.Lib.ScatterVec.scatterAdd_apply _ rfl rfl rfl]
  have h1 : val_main_v33 (F := Ideal) (ix1 b) = 0 := by
    rw [val_main_v33_apply, val_main_cst_9_apply]; exact Ideal.ofBits_zero_f32
  rw [h1, zero_add]
  unfold cosR
  refine Finset.sum_congr rfl (fun p _ => ?_)
  rw [val_main_v34_apply, col34]
  exact if_ctx_congr Iff.rfl (fun h => cos_eq x0 x1 p b h) (fun _ => rfl)

/-! ### The loss, lane by lane -/

theorem term_eq (x0 : PtsBuf) (x1 : WordsBuf) (b : Fin 100) :
    val_main_v43 (F := Ideal) x0 x1 (ix1 b) = term (cnt (idsOf x1) b.val) (cosR (zOf x0) (idsOf x1) b.val) := by
  rw [val_main_v43_apply, val_main_v40_apply, val_main_v42_apply, val_main_v38_apply, val_main_v37_apply,
    val_main_v39_apply, val_main_v41_apply, val_main_v36_apply, val_main_call0_v1_apply, val_main_call0_v0_apply,
    val_main_cst_11_apply, val_main_cst_12_apply, val_main_cst_10_apply, val_main_cst_13_apply, counts_eq, cossum_eq]
  simp only [Ideal.ofBits_def, Ideal.ofBits_zero_f32]
  rfl

theorem vld_eq (x1 : WordsBuf) (b : Fin 100) :
    val_main_v45 (F := Ideal) x1 (ix1 b) = vld (cnt (idsOf x1) b.val) := by
  rw [val_main_v45_apply, val_main_v40_apply, val_main_v39_apply, val_main_cst_11_apply, counts_eq]
  rfl

/-- The reference's result, read at its one index, is the loss of the points `x0` and the block words `x1`. -/
theorem ref_value (x0 : (⟨S1000000x128, .f32⟩ : BufTy).Contents (Elt Ideal)) (x1 : (⟨S1000000, .i32⟩ : BufTy).Contents (Elt Ideal))
    (i : S_.Idx) :
    val_main_v48 (F := Ideal) x0 x1 i = lossR (fun p d => x0 (ix2 p d)) (fun p => x1 (ix1 p)) := by
  have hT : ∑ j : S100.Idx, val_main_v43 (F := Ideal) x0 x1 j
      = ∑ b : Fin 100, term (cnt (idsOf x1) b.val) (cosR (zOf x0) (idsOf x1) b.val) :=
    Fintype.sum_equiv laneEquiv _ _ (fun j => by
      obtain ⟨b, rfl⟩ : ∃ b : Fin 100, j = ix1 b := ⟨j 0, eq_ix1 j⟩
      exact term_eq x0 x1 b)
  have hV : ∑ j : S100.Idx, val_main_v45 (F := Ideal) x1 j = ∑ b : Fin 100, vld (cnt (idsOf x1) b.val) :=
    Fintype.sum_equiv laneEquiv _ _ (fun j => by
      obtain ⟨b, rfl⟩ : ∃ b : Fin 100, j = ix1 b := ⟨j 0, eq_ix1 j⟩
      exact vld_eq x1 b)
  rw [val_main_v48_apply, val_main_v47_apply, val_main_v44_apply, val_main_v46_apply, val_main_cst_14_apply,
    val_main_cst_15_apply, val_main_cst_16_apply, hT, hV]
  simp only [Ideal.ofBits_def, Ideal.ofBits_zero_f32, zero_add]
  rfl

end Cert.ReferenceIdeal.RefValue

end
-- ==== Proof.Pieces.lean ====
/-
  What each control case of the kernel body leaves in the three output blocks, as the body's arithmetic: the first
  tile of a half (case A) clears each block and then adds the tile's contribution to the cleared block; every other
  tile (case B) adds its contribution to what the tile before left.
-/
import proofs.«408775_j4844723110183_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

/-- The zero offsets of a three-axis block, as the constant function: every block here is read and written whole. -/
private theorem hz3 : (![0, 0, 0] : Fin 3 → Nat) = fun _ => 0 := funext fun a => by fin_cases a <;> rfl

/-- The zero offsets of a two-axis tile, as the constant function. -/
private theorem hz2 : (![0, 0] : Fin 2 → Nat) = fun _ => 0 := funext fun a => by fin_cases a <;> rfl

/-- First tile of a half, the block of sums: the tile's matrix product added to the cleared block. -/
theorem out0_A_2_eq (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (hc0 : cond0_0 i) (x0 : Vec F S5000x128 .f32) (x1 : Vec F S5000x1 .i32) :
    out0_A_2 c i arg2 harg2 arg3 harg3 arg4 harg4 arg5 harg5 arg6 harg6 hc0 x0 x1 = k0_pay10 x1 x0 (k0_pay3 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x128x128) hz3, View.readCov_unit_zero (S := S1x128x128) _ hz3]
  simp only [View.readAt_eq_ld, harg3.read_unread, View.ld_unit_zero (S := S5000x1) hz2, harg2.read_unread, View.ld_unit_zero (S := S5000x128) hz2]

/-- First tile of a half, the row of counts. -/
theorem out0_A_3_eq (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (hc0 : cond0_0 i) (x0 : Vec F S5000x128 .f32) (x1 : Vec F S5000x1 .i32) :
    out0_A_3 c i arg2 harg2 arg3 harg3 arg4 harg4 arg5 harg5 arg6 harg6 hc0 x0 x1 = k0_pay1 (k0_pay8 x1) (k0_pay4 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x1x128) hz3, View.readCov_unit_zero (S := S1x1x128) _ hz3]
  simp only [View.readAt_eq_ld, harg3.read_unread, View.ld_unit_zero (S := S5000x1) hz2]

/-- First tile of a half, the block of unit-row sums. -/
theorem out0_A_4_eq (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (hc0 : cond0_0 i) (x0 : Vec F S5000x128 .f32) (x1 : Vec F S5000x1 .i32) :
    out0_A_4 c i arg2 harg2 arg3 harg3 arg4 harg4 arg5 harg5 arg6 harg6 hc0 x0 x1 = k0_pay2 (k0_pay9 x1 x0) (k0_pay5 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x128x128) hz3, View.readCov_unit_zero (S := S1x128x128) _ hz3]
  simp only [View.readAt_eq_ld, harg3.read_unread, View.ld_unit_zero (S := S5000x1) hz2, harg2.read_unread, View.ld_unit_zero (S := S5000x128) hz2]

/-- A later tile, the block of sums: the tile's matrix product added to what the tile before left. -/
theorem out0_B_2_eq (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (hc0 : ¬cond0_0 i) (x0 : Vec F S5000x128 .f32) (x1 : Vec F S5000x1 .i32)
    (xo2 : Vec F S1x128x128 .f32) (xo3 : Vec F S1x1x128 .f32) (xo4 : Vec F S1x128x128 .f32) :
    out0_B_2 c i arg2 harg2 arg3 harg3 arg4 harg4 arg5 harg5 arg6 harg6 hc0 x0 x1 xo2 xo3 xo4 = k0_pay10 x1 x0 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg3.read_unread, View.ld_unit_zero (S := S5000x1) hz2, harg2.read_unread, View.ld_unit_zero (S := S5000x128) hz2, harg4.read_unread, View.ld_unit_zero (S := S1x128x128) hz3]

/-- A later tile, the row of counts. -/
theorem out0_B_3_eq (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (hc0 : ¬cond0_0 i) (x0 : Vec F S5000x128 .f32) (x1 : Vec F S5000x1 .i32)
    (xo2 : Vec F S1x128x128 .f32) (xo3 : Vec F S1x1x128 .f32) (xo4 : Vec F S1x128x128 .f32) :
    out0_B_3 c i arg2 harg2 arg3 harg3 arg4 harg4 arg5 harg5 arg6 harg6 hc0 x0 x1 xo2 xo3 xo4 = k0_pay1 (k0_pay8 x1) xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg3.read_unread, View.ld_unit_zero (S := S5000x1) hz2, harg5.read_unread, View.ld_unit_zero (S := S1x1x128) hz3]

/-- A later tile, the block of unit-row sums. -/
theorem out0_B_4_eq (c : Dev nD) (i : grid0.Coords) (arg2 : Memref sig .tc .vmem S5000x128 .f32) (harg2 : arg2.IsWhole) (arg3 : Memref sig .tc .vmem S5000x1 .i32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (hc0 : ¬cond0_0 i) (x0 : Vec F S5000x128 .f32) (x1 : Vec F S5000x1 .i32)
    (xo2 : Vec F S1x128x128 .f32) (xo3 : Vec F S1x1x128 .f32) (xo4 : Vec F S1x128x128 .f32) :
    out0_B_4 c i arg2 harg2 arg3 harg3 arg4 harg4 arg5 harg5 arg6 harg6 hc0 x0 x1 xo2 xo3 xo4 = k0_pay2 (k0_pay9 x1 x0) xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg3.read_unread, View.ld_unit_zero (S := S5000x1) hz2, harg2.read_unread, View.ld_unit_zero (S := S5000x128) hz2, harg6.read_unread, View.ld_unit_zero (S := S1x128x128) hz3]

end Cert.KernelIdeal.Pieces

end
-- ==== Proof.Payload.lean ====
/-
  The body's arithmetic read at an index, on the extended reals. With `ohw w b` the mask of lane `b` on a row whose
  block word is `w`: the matrix product of the mask with the tile is, at `(b, d)`, the sum over the tile's rows of
  mask times entry; the lane sum of the mask counts the rows of block `b`; the second product does the same with each
  row divided by its clamped norm. Each is added to the block it is given.
-/
import proofs.«408775_j4844723110183_2_alg».proof.Proof.Gen.KernelIdeal.Skeleton
import proofs.«408775_j4844723110183_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.SegCos

/-! ### Words and bits -/

/-- A lane number below 128, as a 32-bit word read signed, is below 100 exactly when the number is. -/
theorem slt_lane (b : Fin 128) : (BitVec.ofNat 32 b.val).slt 100#32 = decide (b.val < 100) := by
  revert b; decide

/-- The conjunction of two one-bit words is 1 exactly when both are. -/
theorem ofBool_and (p q : Bool) :
    BitVec.ofBool p &&& BitVec.ofBool q = if p = true ∧ q = true then 1#1 else 0#1 := by
  cases p <;> cases q <;> decide

/-- The mask bit of lane b on a row whose word is w: the word is the lane's number, and the lane is below 100. -/
theorem mask_bit (w : BitVec 32) (b : Fin 128) :
    IntOp.andi (IntOp.cmpi .eq w (BitVec.ofNat 32 b.val)) (IntOp.cmpi .slt (BitVec.ofNat 32 b.val) 100#32)
      = if w = BitVec.ofNat 32 b.val ∧ b.val < 100 then 1#1 else 0#1 := by
  show BitVec.ofBool (w == BitVec.ofNat 32 b.val) &&& BitVec.ofBool ((BitVec.ofNat 32 b.val).slt 100#32) = _
  rw [ofBool_and, slt_lane]
  exact if_congr (and_congr beq_iff_eq decide_eq_true_iff) rfl rfl

/-- A decided bit, widened to a word and read as a signed integer, is the number 1 or 0. -/
theorem mask_val (P : Prop) [Decidable P] :
    FloatOps.sitofp (F := Ideal) .f32 ((if P then 1#1 else 0#1 : BitVec 1).setWidth 32) = if P then (1 : EReal) else 0 := by
  by_cases h : P
  · rw [if_pos h, if_pos h]
    show (((((1#1 : BitVec 1).setWidth 32).toInt : ℤ) : ℝ) : EReal) = 1
    rw [show ((1#1 : BitVec 1).setWidth 32).toInt = 1 by decide]
    simp
  · rw [if_neg h, if_neg h]
    show (((((0#1 : BitVec 1).setWidth 32).toInt : ℤ) : ℝ) : EReal) = 0
    rw [show ((0#1 : BitVec 1).setWidth 32).toInt = 0 by decide]
    simp

/-! ### Layout operations on a column -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, j), the column at i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The square root of a vector read at an index. -/
theorem sqrt_apply {s : Shape} {φ : FTy} (a : FVec Ideal s φ) (i : s.Idx) : sqrt a i = Ideal.sqrt (a i) := rfl

/-! ### The two lane sums -/

/-- The sum over the rows of a tile, at lane b. -/
theorem lane_sum (src : FVec Ideal S5000x128 .f32) (h : S5000x128.Reduces [0] S128) (hφ : FKind.Formats .f32)
    (hacc : (0x00000000#32 : BitVec 32) = 0x00000000#32) (b : Fin 128) :
    multiReduction (F := Ideal) .add [0] S128 src 0x00000000#32 h hφ hacc (ix1 b) = ∑ r : Fin 5000, src (ix2 r b) := by
  refine (Ideal.multiReduction_add_single src 0x00000000#32 h hφ hacc (ix1 b)).trans ?_
  refine Finset.sum_congr rfl fun r _ => congrArg src ?_
  funext c
  apply Fin.ext
  match c with
  | ⟨0, _⟩ => rfl
  | ⟨1, _⟩ => rfl

/-- The sum over the lanes of a tile, at row r. -/
theorem row_sum (src : FVec Ideal S5000x128 .f32) (h : S5000x128.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

/-! ### The mask at an index -/

/-- The mask bit at (r, b). -/
theorem pay6_apply (x1 : Vec Ideal S5000x1 .i32) (r : Fin 5000) (b : Fin 128) :
    k0_pay6 (F := Ideal) x1 (ix2 r b)
      = if x1 (ix2 r (0 : Fin 1)) = BitVec.ofNat 32 b.val ∧ b.val < 100 then 1#1 else 0#1 := by
  have hi : ∀ h : S5000x128.Iotas .tc 32 [1], iota .tc S5000x128 32 [1] h (ix2 r b) = BitVec.ofNat 32 b.val :=
    fun h => iota_single_apply .tc S5000x128 32 1 h (ix2 r b)
  have hb : ∀ (hs : S5000x1.ShapeCasts S5000x1) (hbr : S5000x1.Broadcasts S5000x128),
      broadcastTo S5000x128 (shapeCast S5000x1 x1 hs) hbr (ix2 r b) = x1 (ix2 r (0 : Fin 1)) := fun hs hbr =>
    (broadcastTo_a1_ab_apply _ hbr r b).trans (congrFun (shapeCast_self x1 hs) _)
  refine Eq.trans ?_ (mask_bit (x1 (ix2 r (0 : Fin 1))) b)
  unfold k0_pay6
  show IntOp.andi (IntOp.cmpi .eq (broadcastTo S5000x128 (shapeCast S5000x1 x1 _) _ (ix2 r b)) (iota .tc S5000x128 32 [1] _ (ix2 r b)))
      (IntOp.cmpi .slt (iota .tc S5000x128 32 [1] _ (ix2 r b)) 100#32) = _
  rw [hi, hb]

/-- The mask as a number at (r, b), before the cast to the product's format. -/
theorem maskF_apply (x1 : Vec Ideal S5000x1 .i32) (h : 1 < 32) (r : Fin 5000) (b : Fin 128) :
    (sitofp .f32 (extui 32 (k0_pay6 (F := Ideal) x1) h) : FVec Ideal S5000x128 .f32) (ix2 r b)
      = ohw (x1 (ix2 r (0 : Fin 1))) b := by
  show FloatOps.sitofp (F := Ideal) .f32 ((k0_pay6 (F := Ideal) x1 (ix2 r b)).setWidth 32) = _
  rw [pay6_apply]
  exact mask_val _

/-- The mask the products take at (r, b). -/
theorem pay7_apply (x1 : Vec Ideal S5000x1 .i32) (r : Fin 5000) (b : Fin 128) :
    k0_pay7 (F := Ideal) x1 (ix2 r b) = ohw (x1 (ix2 r (0 : Fin 1))) b := by
  unfold k0_pay7
  exact maskF_apply x1 _ r b

/-- The lane sum of the mask: lane b counts the tile's rows of block b. -/
theorem pay8_apply (x1 : Vec Ideal S5000x1 .i32) (b : Fin 128) :
    k0_pay8 (F := Ideal) x1 (ix2 (0 : Fin 1) b) = ∑ r : Fin 5000, ohw (x1 (ix2 r (0 : Fin 1))) b := by
  unfold k0_pay8
  refine (shapeCast_a_1a_apply _ _ (0 : Fin 1) b).trans ?_
  refine (lane_sum _ _ _ _ b).trans ?_
  exact Finset.sum_congr rfl fun r _ => maskF_apply x1 _ r b

/-! ### The matrix product over the tile's rows -/

theorem lhs_dot_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q

theorem lhs_dot_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide),
    dif_pos (show (1 : Fin S5000x128.rank) ∈ dot_S5000x128_S5000x128_S128x128_0_0_1_1_n_n.lhsNonContracting by decide)]
  rfl

theorem rhs_dot_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q

theorem rhs_dot_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide),
    dif_pos (show (1 : Fin S5000x128.rank) ∈ dot_S5000x128_S5000x128_S128x128_0_0_1_1_n_n.rhsNonContracting by decide)]
  rfl

/-- The product that contracts the row axis of both operands, into zero: at (b, d) the sum over the rows of the
    left operand at (r, b) times the right operand at (r, d). -/
theorem matmul_read (A B : FVec Ideal S5000x128 .bf16) (b d : Fin 128) :
    matmul dot_S5000x128_S5000x128_S128x128_0_0_1_1_n_n none A B (constant (F := Ideal) S128x128 .f32 0x00000000#32) (ix2 b d)
      = ∑ r : Fin 5000, A (ix2 r b) * B (ix2 r d) := by
  refine (Ideal.matmul_constant_zero_apply dot_S5000x128_S5000x128_S128x128_0_0_1_1_n_n none A B (ix2 b d)).trans ?_
  rw [← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 b d) ((contrEquiv1 dot_S5000x128_S5000x128_S128x128_0_0_1_1_n_n 5000 rfl rfl).symm k) = ix2 k b := funext fun a => Fin.ext (by
    match a with
    | ⟨0, _⟩ => exact (lhs_dot_0 _ _).trans hk
    | ⟨1, _⟩ => exact lhs_dot_1 _ _)
  have er : dot_S5000x128_S5000x128_S128x128_0_0_1_1_n_n.rhsIdx (ix2 b d) ((contrEquiv1 dot_S5000x128_S5000x128_S128x128_0_0_1_1_n_n 5000 rfl rfl).symm k) = ix2 k d := funext fun a => Fin.ext (by
    match a with
    | ⟨0, _⟩ => exact (rhs_dot_0 _ _).trans hk
    | ⟨1, _⟩ => exact rhs_dot_1 _ _)
  rw [el, er]

/-- The second product at (b, d): the tile's rows of block b, each over its clamped norm, coordinate d. -/
theorem pay9_apply (x1 : Vec Ideal S5000x1 .i32) (x0 : Vec Ideal S5000x128 .f32) (b d : Fin 128) :
    k0_pay9 (F := Ideal) x1 x0 (ix2 b d)
      = ∑ r : Fin 5000, ohw (x1 (ix2 r (0 : Fin 1))) b
          * Ideal.div (x0 (ix2 r d)) (max (Ideal.sqrt (∑ k : Fin 128, x0 (ix2 r k) * x0 (ix2 r k))) epsE) := by
  unfold k0_pay9
  refine (matmul_read _ _ b d).trans ?_
  refine Finset.sum_congr rfl fun r _ => ?_
  refine congrArg₂ (· * ·) (pay7_apply x1 r b) ?_
  refine (truncf_apply (φ := .f32) (ψ := .bf16) _ _ _).trans ?_
  refine (divf_apply _ _ _).trans ?_
  refine congrArg (Ideal.div (x0 (ix2 r d))) ?_
  refine (broadcastTo_a1_ab_apply _ _ r d).trans ?_
  refine (maximumf_apply _ _ _).trans ?_
  refine congrArg₂ max ?_ rfl
  refine (sqrt_apply _ _).trans ?_
  refine congrArg Ideal.sqrt ?_
  refine (shapeCast_a_a1_apply _ _ r (0 : Fin 1)).trans ?_
  exact row_sum _ _ _ _ r

/-! ### The stored blocks -/

/-- The three cleared blocks hold zero. -/
theorem pay3_apply (j : S1x128x128.Idx) : k0_pay3 (F := Ideal) j = 0 := by
  unfold k0_pay3
  show Ideal.ofBits .f32 0x00000000#32 = 0
  exact Ideal.ofBits_zero_f32
theorem pay4_apply (j : S1x1x128.Idx) : k0_pay4 (F := Ideal) j = 0 := by
  unfold k0_pay4
  show Ideal.ofBits .f32 0x00000000#32 = 0
  exact Ideal.ofBits_zero_f32
theorem pay5_apply (j : S1x128x128.Idx) : k0_pay5 (F := Ideal) j = 0 := by
  unfold k0_pay5
  show Ideal.ofBits .f32 0x00000000#32 = 0
  exact Ideal.ofBits_zero_f32

/-- The block of sums after a tile: what it held plus, at `(b, d)`, the tile's rows of block `b`, coordinate `d`. -/
theorem pay10_apply (x1 : Vec Ideal S5000x1 .i32) (x0 : Vec Ideal S5000x128 .f32) (acc : Vec Ideal S1x128x128 .f32)
    (b d : Fin 128) :
    k0_pay10 (F := Ideal) x1 x0 acc (ix3 (0 : Fin 1) b d)
      = acc (ix3 (0 : Fin 1) b d) + ∑ r : Fin 5000, ohw (x1 (ix2 r (0 : Fin 1))) b * x0 (ix2 r d) := by
  unfold k0_pay10
  refine (shapeCast_ab_1ab_apply _ _ (0 : Fin 1) b d).trans ?_
  refine (addf_apply _ _ _).trans ?_
  refine congrArg₂ (· + ·) (shapeCast_1ab_ab_apply acc _ b d) ?_
  refine (matmul_read _ _ b d).trans ?_
  exact Finset.sum_congr rfl fun r _ => congrArg₂ (· * ·) (pay7_apply x1 r b) rfl

/-- The row of counts after a tile: what it held plus the number of the tile's rows of block `b`. -/
theorem pay1_apply (x1 : Vec Ideal S5000x1 .i32) (acc : Vec Ideal S1x1x128 .f32) (b : Fin 128) :
    k0_pay1 (F := Ideal) (k0_pay8 x1) acc (ix3 (0 : Fin 1) (0 : Fin 1) b)
      = acc (ix3 (0 : Fin 1) (0 : Fin 1) b) + ∑ r : Fin 5000, ohw (x1 (ix2 r (0 : Fin 1))) b := by
  unfold k0_pay1
  refine (shapeCast_ab_1ab_apply _ _ (0 : Fin 1) (0 : Fin 1) b).trans ?_
  refine (addf_apply _ _ _).trans ?_
  exact congrArg₂ (· + ·) (shapeCast_1ab_ab_apply acc _ (0 : Fin 1) b) (pay8_apply x1 b)

/-- The block of unit-row sums after a tile: what it held plus, at `(b, d)`, the tile's rows of block `b` each over its
    clamped norm, coordinate `d`. -/
theorem pay2_apply (x1 : Vec Ideal S5000x1 .i32) (x0 : Vec Ideal S5000x128 .f32) (acc : Vec Ideal S1x128x128 .f32)
    (b d : Fin 128) :
    k0_pay2 (F := Ideal) (k0_pay9 x1 x0) acc (ix3 (0 : Fin 1) b d)
      = acc (ix3 (0 : Fin 1) b d) + ∑ r : Fin 5000, ohw (x1 (ix2 r (0 : Fin 1))) b
          * Ideal.div (x0 (ix2 r d)) (max (Ideal.sqrt (∑ k : Fin 128, x0 (ix2 r k) * x0 (ix2 r k))) epsE) := by
  unfold k0_pay2
  refine (shapeCast_ab_1ab_apply _ _ (0 : Fin 1) b d).trans ?_
  refine (addf_apply _ _ _).trans ?_
  exact congrArg₂ (· + ·) (shapeCast_1ab_ab_apply acc _ b d) (pay9_apply x1 x0 b d)

end Cert.KernelIdeal.Payload

end
-- ==== Proof.Arrays.lean ====
/-
  The three output arrays after the kernel's run. Output block `cc` (one per half) is carried across the half's 100
  tiles and written back after the last: tile by tile it holds the sum of the contributions so far, so what is
  written back is the half's whole sum, `kS` / `kC` / `kU` of the launch's points and block words.
-/
import proofs.«408775_j4844723110183_2_alg».proof.Proof.Pieces
import proofs.«408775_j4844723110183_2_alg».proof.Proof.Payload
import Idealize.ShloMosaic.Lib.Pipeline.Value

noncomputable section

open scoped BigOperators

namespace Cert.KernelIdeal.Arrays

open Idealize.ShloMosaic Idealize.ShloMosaic.TcCoe Idealize.ShloMosaic.ValueIdx Idealize.SL.Sem Cert.KernelIdeal Cert.KernelIdeal.Gen Cert.SegCos

variable (m : (ℓ : Loc nD τ sig) → Buf (Elt Ideal) ℓ)

/-- The launch's points and block words on core `c`, as plain functions. -/
def zOf (c : Dev nD) : Z := fun i d => (m ((c.tc : Thread nD τ).loc main_arg0) : Vec Ideal S1000000x128 .f32) (ix2 i d)
def idsOf (c : Dev nD) : Ids := fun i => (m ((c.tc : Thread nD τ).loc main_arg1) : Vec Ideal S1000000 .i32) (ix1 i)

/-! ## A carried sum, tile by tile

A quantity that is reset to the tile's contribution at the first tile of a half and takes the tile's contribution on
top of what the tile before left at every other tile is, after tile `n`, the sum of the contributions of the tiles of
`n`'s half up to `n`. -/

/-- A function of the 200 tiles read at any natural number: zero past the last tile. -/
def ext0 (g : Fin 200 → EReal) (n : ℕ) : EReal := if h : n < 200 then g ⟨n, h⟩ else 0

theorem ext0_apply (g : Fin 200 → EReal) (n : ℕ) (h : n < 200) : ext0 g n = g ⟨n, h⟩ := dif_pos h

theorem fold_sum {N : ℕ} (f : (n : ℕ) → n < N → EReal) (M : ℕ → EReal)
    (h0 : ∀ (n : ℕ) (h : n < N), n % 100 = 0 → f n h = M n)
    (hs : ∀ (n : ℕ) (h : n + 1 < N), ¬(n + 1) % 100 = 0 → f (n + 1) h = f n (Nat.lt_of_succ_lt h) + M (n + 1)) :
    ∀ (n : ℕ) (h : n < N), f n h = ∑ s ∈ Finset.range (n % 100 + 1), M (100 * (n / 100) + s)
  | 0, h => by
    rw [h0 0 h (Nat.zero_mod 100)]
    simp
  | n + 1, h => by
    by_cases hm : (n + 1) % 100 = 0
    · have e : 100 * ((n + 1) / 100) = n + 1 := by omega
      rw [h0 _ h hm]
      simp only [hm, Nat.zero_add, Finset.sum_range_one, Nat.add_zero, e]
    · have e1 : (n + 1) % 100 = n % 100 + 1 := by omega
      have e2 : (n + 1) / 100 = n / 100 := by omega
      have e3 : 100 * (n / 100) + (n % 100 + 1) = n + 1 := by omega
      rw [hs n h hm, fold_sum f M h0 hs n (Nat.lt_of_succ_lt h), e1, e2, Finset.sum_range_succ _ (n % 100 + 1), e3]

/-- The sum over the tiles of half `cc` as the sum over the half's hundred tiles by number. -/
theorem half_sum (g : Fin 200 → EReal) (cc : Fin 2) :
    ∑ s ∈ Finset.range 100, ext0 g (100 * cc.val + s) = ∑ t : Fin 100, g (pt cc t) := by
  rw [Finset.sum_range]
  refine Finset.sum_congr rfl fun s _ => ?_
  have hs := s.isLt
  have hc := cc.isLt
  rw [ext0_apply g _ (by omega)]
  rfl

/-! ## The tiles' rows in the launch's arrays -/

/-- Where each window's block sits at tile `t`: the two inputs' at row block `t`, each output's at half `t / 100`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 100 ∧ win0_2.index t (1 : Fin 3) = 0 ∧ win0_2.index t (2 : Fin 3) = 0
    ∧ win0_3.index t (0 : Fin 3) = t.val / 100 ∧ win0_3.index t (1 : Fin 3) = 0 ∧ win0_3.index t (2 : Fin 3) = 0
    ∧ win0_4.index t (0 : Fin 3) = t.val / 100 ∧ win0_4.index t (1 : Fin 3) = 0 ∧ win0_4.index t (2 : Fin 3) = 0 :=
  (by decide +kernel : ∀ t : Fin grid0.N, _)

theorem lt200 (t : Fin cfg0.N) : t.val < 200 := lt_of_lt_of_eq t.isLt (show cfg0.N = 200 from N_0)

/-- Tile `t`'s block of points and its block of words. -/
abbrev xblk (c : Dev nD) (t : Fin cfg0.N) : Vec Ideal S5000x128 .f32 := iblk m c 0 t
abbrev wblk (c : Dev nD) (t : Fin cfg0.N) : Vec Ideal S5000x1 .i32 := iblk m c 1 t

/-- Row `r` of tile `t`'s block of points is point `5000 t + r` of the launch. -/
theorem xblk_apply (c : Dev nD) (t : Fin cfg0.N) (r : Fin 5000) (d : Fin 128) :
    xblk m c t (ix2 r d) = zOf m c (rowOf ⟨t.val, lt200 t⟩ r) d := by
  obtain ⟨e0, e1, -⟩ := idx_facts t
  unfold xblk iblk zOf
  rw [View.read_apply]
  show V m c main_arg0 (((cfg0.win 0).blk t).view.emb (ix2 r d)) = m (c.tc.loc main_arg0) (ix2 (rowOf ⟨t.val, lt200 t⟩ r) d)
  rw [V_main_arg0 m c]
  refine congrArg (m (c.tc.loc main_arg0)) ?_
  funext a; apply Fin.ext
  match a with
  | ⟨0, _⟩ => show win0_0.index t (0 : Fin 2) * 5000 + 1 * r.val = t.val * 5000 + r.val; rw [e0]; omega
  | ⟨1, _⟩ => show win0_0.index t (1 : Fin 2) * 128 + 1 * d.val = d.val; rw [e1]; omega

/-- The words the kernel reads are the launch's words laid out as one column. -/
theorem V_v0 (c : Dev nD) :
    (V m c main_v0 : Vec Ideal S1000000x1 .i32)
      = shapeCast S1000000x1 (m ((c.tc : Thread nD τ).loc main_arg1) : Vec Ideal S1000000 .i32) shapeCasts_S1000000_S1000000x1 := by
  dsimp only [V, V0]
  simp only [hostOps0, List.flatten_cons, List.flatten_nil, List.append_nil]
  after_results <;> rfl

/-- Row `r` of tile `t`'s block of words is the word of point `5000 t + r`. -/
theorem wblk_apply (c : Dev nD) (t : Fin cfg0.N) (r : Fin 5000) :
    wblk m c t (ix2 r (0 : Fin 1)) = idsOf m c (rowOf ⟨t.val, lt200 t⟩ r) := by
  obtain ⟨-, -, e0, e1, -⟩ := idx_facts t
  unfold wblk iblk idsOf
  rw [View.read_apply]
  show V m c main_v0 (((cfg0.win 1).blk t).view.emb (ix2 r (0 : Fin 1))) = m (c.tc.loc main_arg1) (ix1 (rowOf ⟨t.val, lt200 t⟩ r))
  rw [V_v0 m c]
  refine shapeCast_apply (s := S1000000) (t := S1000000x1) _ _ _ _ ?_
  rw [Shape.rowMajor_val_one, Shape.rowMajor_val_two]
  show t.val * 5000 + r.val = (win0_1.index t (0 : Fin 2) * 5000 + 1 * r.val) * 1 + (win0_1.index t (1 : Fin 2) * 1 + 1 * 0)
  rw [e0, e1]; omega

/-! ## One tile's contribution, from the tile's blocks -/

theorem tileS_eq (c : Dev nD) (b d : Fin 128) (t : Fin cfg0.N) :
    ∑ r : Fin 5000, ohw (wblk m c t (ix2 r (0 : Fin 1))) b * xblk m c t (ix2 r d)
      = ext0 (fun n => tileS (zOf m c) (idsOf m c) n b d) t.val := by
  rw [ext0_apply _ _ (lt200 t)]
  show _ = ∑ r : Fin 5000, ohw (idsOf m c (rowOf ⟨t.val, lt200 t⟩ r)) b * zOf m c (rowOf ⟨t.val, lt200 t⟩ r) d
  exact Finset.sum_congr rfl fun r _ => by rw [wblk_apply m c t r, xblk_apply m c t r d]

theorem tileC_eq (c : Dev nD) (b : Fin 128) (t : Fin cfg0.N) :
    ∑ r : Fin 5000, ohw (wblk m c t (ix2 r (0 : Fin 1))) b
      = ext0 (fun n => tileC (idsOf m c) n b) t.val := by
  rw [ext0_apply _ _ (lt200 t)]
  show _ = ∑ r : Fin 5000, ohw (idsOf m c (rowOf ⟨t.val, lt200 t⟩ r)) b
  exact Finset.sum_congr rfl fun r _ => by rw [wblk_apply m c t r]

theorem tileU_eq (c : Dev nD) (b d : Fin 128) (t : Fin cfg0.N) :
    ∑ r : Fin 5000, ohw (wblk m c t (ix2 r (0 : Fin 1))) b
        * Ideal.div (xblk m c t (ix2 r d)) (max (Ideal.sqrt (∑ k : Fin 128, xblk m c t (ix2 r k) * xblk m c t (ix2 r k))) epsE)
      = ext0 (fun n => tileU (zOf m c) (idsOf m c) n b d) t.val := by
  rw [ext0_apply _ _ (lt200 t)]
  show _ = ∑ r : Fin 5000, ohw (idsOf m c (rowOf ⟨t.val, lt200 t⟩ r)) b
      * Ideal.div (zOf m c (rowOf ⟨t.val, lt200 t⟩ r) d)
          (max (Ideal.sqrt (∑ k : Fin 128, zOf m c (rowOf ⟨t.val, lt200 t⟩ r) k * zOf m c (rowOf ⟨t.val, lt200 t⟩ r) k)) epsE)
  refine Finset.sum_congr rfl fun r _ => ?_
  have hin : (∑ k : Fin 128, xblk m c t (ix2 r k) * xblk m c t (ix2 r k))
      = ∑ k : Fin 128, zOf m c (rowOf ⟨t.val, lt200 t⟩ r) k * zOf m c (rowOf ⟨t.val, lt200 t⟩ r) k :=
    Finset.sum_congr rfl fun k _ => by rw [xblk_apply m c t r k]
  rw [wblk_apply m c t r, xblk_apply m c t r d, hin]

/-! ## What the three blocks hold after each tile -/

/-- First tile of a half: each block holds that tile's contribution. -/
theorem out2_A (c : Dev nD) (b d : Fin 128) (t : Fin cfg0.N) (h0 : t.val % 100 = 0) :
    (outsAt0 m c t.val t.isLt).1 (ix3 (0 : Fin 1) b d) = ext0 (fun n => tileS (zOf m c) (idsOf m c) n b d) t.val := by
  rw [outsAt0_A m c t h0]; dsimp only
  refine (congrFun (Pieces.out0_A_2_eq (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (wblk m c t)) (ix3 (0 : Fin 1) b d)).trans ?_
  refine (Payload.pay10_apply (wblk m c t) (xblk m c t) (k0_pay3 (F := Ideal)) b d).trans ?_
  rw [Payload.pay3_apply, zero_add]
  exact tileS_eq m c b d t

theorem out3_A (c : Dev nD) (b : Fin 128) (t : Fin cfg0.N) (h0 : t.val % 100 = 0) :
    (outsAt0 m c t.val t.isLt).2.1 (ix3 (0 : Fin 1) (0 : Fin 1) b) = ext0 (fun n => tileC (idsOf m c) n b) t.val := by
  rw [outsAt0_A m c t h0]; dsimp only
  refine (congrFun (Pieces.out0_A_3_eq (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (wblk m c t)) (ix3 (0 : Fin 1) (0 : Fin 1) b)).trans ?_
  refine (Payload.pay1_apply (wblk m c t) (k0_pay4 (F := Ideal)) b).trans ?_
  rw [Payload.pay4_apply, zero_add]
  exact tileC_eq m c b t

theorem out4_A (c : Dev nD) (b d : Fin 128) (t : Fin cfg0.N) (h0 : t.val % 100 = 0) :
    (outsAt0 m c t.val t.isLt).2.2 (ix3 (0 : Fin 1) b d) = ext0 (fun n => tileU (zOf m c) (idsOf m c) n b d) t.val := by
  rw [outsAt0_A m c t h0]; dsimp only
  refine (congrFun (Pieces.out0_A_4_eq (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (wblk m c t)) (ix3 (0 : Fin 1) b d)).trans ?_
  refine (Payload.pay2_apply (wblk m c t) (xblk m c t) (k0_pay5 (F := Ideal)) b d).trans ?_
  rw [Payload.pay5_apply, zero_add]
  exact tileU_eq m c b d t

/-- Any other tile: each block holds what the tile before left plus this tile's contribution. -/
theorem out2_B (c : Dev nD) (b d : Fin 128) (t : Fin cfg0.N) (h0 : ¬t.val % 100 = 0) :
    (outsAt0 m c t.val t.isLt).1 (ix3 (0 : Fin 1) b d)
      = (outsAt0 m c (t.val - 1) (Nat.lt_of_le_of_lt (Nat.sub_le _ _) t.isLt)).1 (ix3 (0 : Fin 1) b d)
        + ext0 (fun n => tileS (zOf m c) (idsOf m c) n b d) t.val := by
  rw [outsAt0_B m c t h0]; dsimp only
  refine (congrFun (Pieces.out0_B_2_eq (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (wblk m c t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) b d)).trans ?_
  refine (Payload.pay10_apply (wblk m c t) (xblk m c t) (outsAt0 m c (t.val - 1) (Nat.lt_of_le_of_lt (Nat.sub_le _ _) t.isLt)).1 b d).trans ?_
  rw [tileS_eq m c b d t]

theorem out3_B (c : Dev nD) (b : Fin 128) (t : Fin cfg0.N) (h0 : ¬t.val % 100 = 0) :
    (outsAt0 m c t.val t.isLt).2.1 (ix3 (0 : Fin 1) (0 : Fin 1) b)
      = (outsAt0 m c (t.val - 1) (Nat.lt_of_le_of_lt (Nat.sub_le _ _) t.isLt)).2.1 (ix3 (0 : Fin 1) (0 : Fin 1) b)
        + ext0 (fun n => tileC (idsOf m c) n b) t.val := by
  rw [outsAt0_B m c t h0]; dsimp only
  refine (congrFun (Pieces.out0_B_3_eq (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (wblk m c t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) (0 : Fin 1) b)).trans ?_
  refine (Payload.pay1_apply (wblk m c t) (outsAt0 m c (t.val - 1) (Nat.lt_of_le_of_lt (Nat.sub_le _ _) t.isLt)).2.1 b).trans ?_
  rw [tileC_eq m c b t]

theorem out4_B (c : Dev nD) (b d : Fin 128) (t : Fin cfg0.N) (h0 : ¬t.val % 100 = 0) :
    (outsAt0 m c t.val t.isLt).2.2 (ix3 (0 : Fin 1) b d)
      = (outsAt0 m c (t.val - 1) (Nat.lt_of_le_of_lt (Nat.sub_le _ _) t.isLt)).2.2 (ix3 (0 : Fin 1) b d)
        + ext0 (fun n => tileU (zOf m c) (idsOf m c) n b d) t.val := by
  rw [outsAt0_B m c t h0]; dsimp only
  refine (congrFun (Pieces.out0_B_4_eq (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (wblk m c t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) b d)).trans ?_
  refine (Payload.pay2_apply (wblk m c t) (xblk m c t) (outsAt0 m c (t.val - 1) (Nat.lt_of_le_of_lt (Nat.sub_le _ _) t.isLt)).2.2 b d).trans ?_
  rw [tileU_eq m c b d t]

/-- So after tile `n` each block holds the sum of the contributions of the tiles of `n`'s half up to `n`. -/
theorem out2_eq (c : Dev nD) (b d : Fin 128) (n : ℕ) (h : n < cfg0.N) :
    (outsAt0 m c n h).1 (ix3 (0 : Fin 1) b d)
      = ∑ s ∈ Finset.range (n % 100 + 1), ext0 (fun n => tileS (zOf m c) (idsOf m c) n b d) (100 * (n / 100) + s) :=
  fold_sum (fun n h => (outsAt0 m c n h).1 (ix3 (0 : Fin 1) b d)) (ext0 fun n => tileS (zOf m c) (idsOf m c) n b d)
    (fun n h hm => out2_A m c b d ⟨n, h⟩ hm) (fun n h hm => out2_B m c b d ⟨n + 1, h⟩ hm) n h

theorem out3_eq (c : Dev nD) (b : Fin 128) (n : ℕ) (h : n < cfg0.N) :
    (outsAt0 m c n h).2.1 (ix3 (0 : Fin 1) (0 : Fin 1) b)
      = ∑ s ∈ Finset.range (n % 100 + 1), ext0 (fun n => tileC (idsOf m c) n b) (100 * (n / 100) + s) :=
  fold_sum (fun n h => (outsAt0 m c n h).2.1 (ix3 (0 : Fin 1) (0 : Fin 1) b)) (ext0 fun n => tileC (idsOf m c) n b)
    (fun n h hm => out3_A m c b ⟨n, h⟩ hm) (fun n h hm => out3_B m c b ⟨n + 1, h⟩ hm) n h

theorem out4_eq (c : Dev nD) (b d : Fin 128) (n : ℕ) (h : n < cfg0.N) :
    (outsAt0 m c n h).2.2 (ix3 (0 : Fin 1) b d)
      = ∑ s ∈ Finset.range (n % 100 + 1), ext0 (fun n => tileU (zOf m c) (idsOf m c) n b d) (100 * (n / 100) + s) :=
  fold_sum (fun n h => (outsAt0 m c n h).2.2 (ix3 (0 : Fin 1) b d)) (ext0 fun n => tileU (zOf m c) (idsOf m c) n b d)
    (fun n h hm => out4_A m c b d ⟨n, h⟩ hm) (fun n h hm => out4_B m c b d ⟨n + 1, h⟩ hm) n h

/-! ## What is written back, and the arrays after the run -/

/-- The arrays of the halves' sums. -/
def G2 (c : Dev nD) : Vec Ideal S2x128x128 .f32 := fun i => kS (zOf m c) (idsOf m c) (i 0) (i 1) (i 2)
def G3 (c : Dev nD) : Vec Ideal S2x1x128 .f32 := fun i => kC (idsOf m c) (i 0) (i 2)
def G4 (c : Dev nD) : Vec Ideal S2x128x128 .f32 := fun i => kU (zOf m c) (idsOf m c) (i 0) (i 1) (i 2)

theorem G2_apply (c : Dev nD) (cc : Fin 2) (b d : Fin 128) (i : S2x128x128.Idx)
    (h0 : (i 0).val = cc.val) (h1 : (i 1).val = b.val) (h2 : (i 2).val = d.val) :
    G2 m c i = kS (zOf m c) (idsOf m c) cc b d :=
  congr (congr (congrArg (kS (zOf m c) (idsOf m c)) (Fin.ext h0)) (Fin.ext h1)) (Fin.ext h2)

theorem G3_apply (c : Dev nD) (cc : Fin 2) (b : Fin 128) (i : S2x1x128.Idx)
    (h0 : (i 0).val = cc.val) (h2 : (i 2).val = b.val) :
    G3 m c i = kC (idsOf m c) cc b :=
  congr (congrArg (kC (idsOf m c)) (Fin.ext h0)) (Fin.ext h2)

theorem G4_apply (c : Dev nD) (cc : Fin 2) (b d : Fin 128) (i : S2x128x128.Idx)
    (h0 : (i 0).val = cc.val) (h1 : (i 1).val = b.val) (h2 : (i 2).val = d.val) :
    G4 m c i = kU (zOf m c) (idsOf m c) cc b d :=
  congr (congr (congrArg (kU (zOf m c) (idsOf m c)) (Fin.ext h0)) (Fin.ext h1)) (Fin.ext h2)

/-- The last tile of a half writes back the half's block of the array of sums. -/
theorem flushed2_eq (c : Dev nD) (t : Fin cfg0.N) (hf : (cfg0.win 2).flush t = true) :
    (dats m 0 c).flushed 2 t = ((cfg0.win 2).blk t).view.read (Elt Ideal) (G2 m c) := by
  have h99 : t.val % 100 = 99 := (flush0_2 t).mp hf
  have h200 := lt200 t
  obtain ⟨-, -, -, -, e0, e1, e2, -⟩ := idx_facts t
  show (cfg0.win 2).cut (grid0.coords t) ((dats m 0 c).after 2 t) = _
  rw [after0_2]
  funext y
  obtain ⟨a, b, d, rfl⟩ : ∃ (a : Fin 1) (b d : Fin 128), y = ix3 a b d :=
    ⟨y 0, y 1, y 2, eq_ix3 (n0 := 1) (n1 := 128) (n2 := 128) y⟩
  obtain rfl : a = 0 := Subsingleton.elim _ _
  rw [View.read_apply]
  show (outsAt0 m c t.val t.isLt).1 (ix3 (0 : Fin 1) b d) = G2 m c (((cfg0.win 2).blk t).view.emb (ix3 (0 : Fin 1) b d))
  rw [out2_eq m c b d t.val t.isLt, h99]
  refine Eq.trans ?_ (G2_apply m c ⟨t.val / 100, by omega⟩ b d _ ?_ ?_ ?_).symm
  · exact half_sum (fun n => tileS (zOf m c) (idsOf m c) n b d) ⟨t.val / 100, by omega⟩
  · show win0_2.index t (0 : Fin 3) * 1 + 1 * 0 = t.val / 100; rw [e0]; omega
  · show win0_2.index t (1 : Fin 3) * 128 + 1 * b.val = b.val; rw [e1]; omega
  · show win0_2.index t (2 : Fin 3) * 128 + 1 * d.val = d.val; rw [e2]; omega

theorem flushed3_eq (c : Dev nD) (t : Fin cfg0.N) (hf : (cfg0.win 3).flush t = true) :
    (dats m 0 c).flushed 3 t = ((cfg0.win 3).blk t).view.read (Elt Ideal) (G3 m c) := by
  have h99 : t.val % 100 = 99 := (flush0_3 t).mp hf
  have h200 := lt200 t
  obtain ⟨-, -, -, -, -, -, -, e0, e1, e2, -⟩ := idx_facts t
  show (cfg0.win 3).cut (grid0.coords t) ((dats m 0 c).after 3 t) = _
  rw [after0_3]
  funext y
  obtain ⟨a, a', b, rfl⟩ : ∃ (a a' : Fin 1) (b : Fin 128), y = ix3 a a' b :=
    ⟨y 0, y 1, y 2, eq_ix3 (n0 := 1) (n1 := 1) (n2 := 128) y⟩
  obtain rfl : a = 0 := Subsingleton.elim _ _
  obtain rfl : a' = 0 := Subsingleton.elim _ _
  rw [View.read_apply]
  show (outsAt0 m c t.val t.isLt).2.1 (ix3 (0 : Fin 1) (0 : Fin 1) b) = G3 m c (((cfg0.win 3).blk t).view.emb (ix3 (0 : Fin 1) (0 : Fin 1) b))
  rw [out3_eq m c b t.val t.isLt, h99]
  refine Eq.trans ?_ (G3_apply m c ⟨t.val / 100, by omega⟩ b _ ?_ ?_).symm
  · exact half_sum (fun n => tileC (idsOf m c) n b) ⟨t.val / 100, by omega⟩
  · show win0_3.index t (0 : Fin 3) * 1 + 1 * 0 = t.val / 100; rw [e0]; omega
  · show win0_3.index t (2 : Fin 3) * 128 + 1 * b.val = b.val; rw [e2]; omega

theorem flushed4_eq (c : Dev nD) (t : Fin cfg0.N) (hf : (cfg0.win 4).flush t = true) :
    (dats m 0 c).flushed 4 t = ((cfg0.win 4).blk t).view.read (Elt Ideal) (G4 m c) := by
  have h99 : t.val % 100 = 99 := (flush0_4 t).mp hf
  have h200 := lt200 t
  obtain ⟨-, -, -, -, -, -, -, -, -, -, e0, e1, e2⟩ := idx_facts t
  show (cfg0.win 4).cut (grid0.coords t) ((dats m 0 c).after 4 t) = _
  rw [after0_4]
  funext y
  obtain ⟨a, b, d, rfl⟩ : ∃ (a : Fin 1) (b d : Fin 128), y = ix3 a b d :=
    ⟨y 0, y 1, y 2, eq_ix3 (n0 := 1) (n1 := 128) (n2 := 128) y⟩
  obtain rfl : a = 0 := Subsingleton.elim _ _
  rw [View.read_apply]
  show (outsAt0 m c t.val t.isLt).2.2 (ix3 (0 : Fin 1) b d) = G4 m c (((cfg0.win 4).blk t).view.emb (ix3 (0 : Fin 1) b d))
  rw [out4_eq m c b d t.val t.isLt, h99]
  refine Eq.trans ?_ (G4_apply m c ⟨t.val / 100, by omega⟩ b d _ ?_ ?_ ?_).symm
  · exact half_sum (fun n => tileU (zOf m c) (idsOf m c) n b d) ⟨t.val / 100, by omega⟩
  · show win0_4.index t (0 : Fin 3) * 1 + 1 * 0 = t.val / 100; rw [e0]; omega
  · show win0_4.index t (1 : Fin 3) * 128 + 1 * b.val = b.val; rw [e1]; omega
  · show win0_4.index t (2 : Fin 3) * 128 + 1 * d.val = d.val; rw [e2]; omega

/-- The last tile of half `cc`. -/
theorem last_lt (cc : Fin 2) : 100 * cc.val + 99 < cfg0.N := by
  have hN : cfg0.N = 200 := N_0
  have hc := cc.isLt
  omega

/-- The array of sums after the run: half `cc`'s sum at `(cc, b, d)`. -/
theorem final2 (c : Dev nD) (cc : Fin 2) (b d : Fin 128) :
    ((dats m 0 c).arrAt 2 cfg0.N : Vec Ideal S2x128x128 .f32) (ix3 cc b d) = kS (zOf m c) (idsOf m c) cc b d := by
  have hc := cc.isLt
  have hb := b.isLt
  have hd := d.isLt
  have hf : (cfg0.win 2).flush ⟨100 * cc.val + 99, last_lt cc⟩ = true :=
    (flush0_2 _).mpr (by show (100 * cc.val + 99) % 100 = 99; omega)
  obtain ⟨-, -, -, -, e0, e1, e2, -⟩ := idx_facts ⟨100 * cc.val + 99, last_lt cc⟩
  have e0' : win0_2.index ⟨100 * cc.val + 99, last_lt cc⟩ (0 : Fin 3) = (100 * cc.val + 99) / 100 := e0
  refine ((dats m 0 c).arrAt_apply_of_mem 2 (G2 m c) (flushed2_eq m c) cfg0.N ⟨100 * cc.val + 99, last_lt cc⟩ (ix3 cc b d)
    (last_lt cc) hf ?_).trans (G2_apply m c cc b d _ rfl rfl rfl)
  show ix3 cc b d ∈ ((View.whole main_v1_0).slice (win0_2.rect ⟨100 * cc.val + 99, last_lt cc⟩)).set
  rw [View.set_slice_whole, Rect.mem_set_unit]
  intro a
  match a with
  | ⟨0, _⟩ =>
    show win0_2.index ⟨100 * cc.val + 99, last_lt cc⟩ (0 : Fin 3) * 1 ≤ cc.val
      ∧ cc.val < win0_2.index ⟨100 * cc.val + 99, last_lt cc⟩ (0 : Fin 3) * 1 + 1
    rw [e0']; omega
  | ⟨1, _⟩ =>
    show win0_2.index ⟨100 * cc.val + 99, last_lt cc⟩ (1 : Fin 3) * 128 ≤ b.val
      ∧ b.val < win0_2.index ⟨100 * cc.val + 99, last_lt cc⟩ (1 : Fin 3) * 128 + 128
    rw [e1]; omega
  | ⟨2, _⟩ =>
    show win0_2.index ⟨100 * cc.val + 99, last_lt cc⟩ (2 : Fin 3) * 128 ≤ d.val
      ∧ d.val < win0_2.index ⟨100 * cc.val + 99, last_lt cc⟩ (2 : Fin 3) * 128 + 128
    rw [e2]; omega

/-- The array of counts after the run. -/
theorem final3 (c : Dev nD) (cc : Fin 2) (b : Fin 128) :
    ((dats m 0 c).arrAt 3 cfg0.N : Vec Ideal S2x1x128 .f32) (ix3 cc (0 : Fin 1) b) = kC (idsOf m c) cc b := by
  have hc := cc.isLt
  have hb := b.isLt
  have hf : (cfg0.win 3).flush ⟨100 * cc.val + 99, last_lt cc⟩ = true :=
    (flush0_3 _).mpr (by show (100 * cc.val + 99) % 100 = 99; omega)
  obtain ⟨-, -, -, -, -, -, -, e0, e1, e2, -⟩ := idx_facts ⟨100 * cc.val + 99, last_lt cc⟩
  have e0' : win0_3.index ⟨100 * cc.val + 99, last_lt cc⟩ (0 : Fin 3) = (100 * cc.val + 99) / 100 := e0
  refine ((dats m 0 c).arrAt_apply_of_mem 3 (G3 m c) (flushed3_eq m c) cfg0.N ⟨100 * cc.val + 99, last_lt cc⟩ (ix3 cc (0 : Fin 1) b)
    (last_lt cc) hf ?_).trans (G3_apply m c cc b _ rfl rfl)
  show ix3 cc (0 : Fin 1) b ∈ ((View.whole main_v1_1).slice (win0_3.rect ⟨100 * cc.val + 99, last_lt cc⟩)).set
  rw [View.set_slice_whole, Rect.mem_set_unit]
  intro a
  match a with
  | ⟨0, _⟩ =>
    show win0_3.index ⟨100 * cc.val + 99, last_lt cc⟩ (0 : Fin 3) * 1 ≤ cc.val
      ∧ cc.val < win0_3.index ⟨100 * cc.val + 99, last_lt cc⟩ (0 : Fin 3) * 1 + 1
    rw [e0']; omega
  | ⟨1, _⟩ =>
    show win0_3.index ⟨100 * cc.val + 99, last_lt cc⟩ (1 : Fin 3) * 1 ≤ 0
      ∧ 0 < win0_3.index ⟨100 * cc.val + 99, last_lt cc⟩ (1 : Fin 3) * 1 + 1
    rw [e1]; omega
  | ⟨2, _⟩ =>
    show win0_3.index ⟨100 * cc.val + 99, last_lt cc⟩ (2 : Fin 3) * 128 ≤ b.val
      ∧ b.val < win0_3.index ⟨100 * cc.val + 99, last_lt cc⟩ (2 : Fin 3) * 128 + 128
    rw [e2]; omega

/-- The array of unit-row sums after the run. -/
theorem final4 (c : Dev nD) (cc : Fin 2) (b d : Fin 128) :
    ((dats m 0 c).arrAt 4 cfg0.N : Vec Ideal S2x128x128 .f32) (ix3 cc b d) = kU (zOf m c) (idsOf m c) cc b d := by
  have hc := cc.isLt
  have hb := b.isLt
  have hd := d.isLt
  have hf : (cfg0.win 4).flush ⟨100 * cc.val + 99, last_lt cc⟩ = true :=
    (flush0_4 _).mpr (by show (100 * cc.val + 99) % 100 = 99; omega)
  obtain ⟨-, -, -, -, -, -, -, -, -, -, e0, e1, e2⟩ := idx_facts ⟨100 * cc.val + 99, last_lt cc⟩
  have e0' : win0_4.index ⟨100 * cc.val + 99, last_lt cc⟩ (0 : Fin 3) = (100 * cc.val + 99) / 100 := e0
  refine ((dats m 0 c).arrAt_apply_of_mem 4 (G4 m c) (flushed4_eq m c) cfg0.N ⟨100 * cc.val + 99, last_lt cc⟩ (ix3 cc b d)
    (last_lt cc) hf ?_).trans (G4_apply m c cc b d _ rfl rfl rfl)
  show ix3 cc b d ∈ ((View.whole main_v1_2).slice (win0_4.rect ⟨100 * cc.val + 99, last_lt cc⟩)).set
  rw [View.set_slice_whole, Rect.mem_set_unit]
  intro a
  match a with
  | ⟨0, _⟩ =>
    show win0_4.index ⟨100 * cc.val + 99, last_lt cc⟩ (0 : Fin 3) * 1 ≤ cc.val
      ∧ cc.val < win0_4.index ⟨100 * cc.val + 99, last_lt cc⟩ (0 : Fin 3) * 1 + 1
    rw [e0']; omega
  | ⟨1, _⟩ =>
    show win0_4.index ⟨100 * cc.val + 99, last_lt cc⟩ (1 : Fin 3) * 128 ≤ b.val
      ∧ b.val < win0_4.index ⟨100 * cc.val + 99, last_lt cc⟩ (1 : Fin 3) * 128 + 128
    rw [e1]; omega
  | ⟨2, _⟩ =>
    show win0_4.index ⟨100 * cc.val + 99, last_lt cc⟩ (2 : Fin 3) * 128 ≤ d.val
      ∧ d.val < win0_4.index ⟨100 * cc.val + 99, last_lt cc⟩ (2 : Fin 3) * 128 + 128
    rw [e2]; omega

end Cert.KernelIdeal.Arrays

end
-- ==== Proof.Tail.lean ====
/-
  The host operations after the kernel's region: from the three arrays the region leaves (`A2` sums, `A3` counts, `A4`
  unit-row sums, one block per half) to the scalar result. Lane by lane the two halves are added, the centre is the
  sum over `max count 1`, and the result is the loss over the 128 lanes.
-/
import proofs.«408775_j4844723110183_2_alg».proof.Proof.Gen.KernelIdeal.Frame
import proofs.«408775_j4844723110183_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Tail

open Idealize.ShloMosaic Idealize.ShloMosaic.TcCoe Idealize.ShloMosaic.ValueIdx Idealize.SL.Sem Cert.KernelIdeal Cert.KernelIdeal.Gen Cert.SegCos

variable (m : (ℓ : Loc nD τ sig) → Buf (Elt Ideal) ℓ)

/-- The loss over 128 lanes from the three arrays the region leaves. -/
def lossOfArrays (A2 : Vec Ideal S2x128x128 .f32) (A3 : Vec Ideal S2x1x128 .f32) (A4 : Vec Ideal S2x128x128 .f32) : EReal :=
  lossLanes (n := 128) (fun b => ∑ cc : Fin 2, A3 (ix3 cc (0 : Fin 1) b))
    (fun b => cosOf (∑ cc : Fin 2, A3 (ix3 cc (0 : Fin 1) b)) (fun d => ∑ cc : Fin 2, A2 (ix3 cc b d))
      (fun d => ∑ cc : Fin 2, A4 (ix3 cc b d)))

namespace Ops

/-! ### The operations, named -/

/-- The constant zero and the constant one, and the clamp, as rank-zero arrays. -/
abbrev zeroW : FVec Ideal S_ .f32 := constant (F := Ideal) S_ .f32 0x00000000#32
abbrev oneW : FVec Ideal S_ .f32 := constant (F := Ideal) S_ .f32 0x3F800000#32
abbrev epsW : FVec Ideal S_ .f32 := constant (F := Ideal) S_ .f32 0x322BCC77#32

/-- The two halves of a [2,128,128] array added. -/
def vS (A : FVec Ideal S2x128x128 .f32) : FVec Ideal S128x128 .f32 :=
  Host.reduceAdd (F := Ideal) A zeroW reducesTo_S2x128x128_S128x128_d0 h_S_

/-- The two halves' counts added, as a [1,128] array and per lane. -/
def vC1 (A3 : FVec Ideal S2x1x128 .f32) : FVec Ideal S1x128 .f32 :=
  Host.reduceAdd (F := Ideal) A3 zeroW reducesTo_S2x1x128_S1x128_d0 h_S_
def vC (A3 : FVec Ideal S2x1x128 .f32) : FVec Ideal S128 .f32 :=
  fun i => shapeCast S128 (vC1 A3) shapeCasts_S1x128_S128 i

/-- One, on every lane. -/
def oneV : FVec Ideal S128 .f32 := broadcastInDim S128 ![] bcast_S_S128 oneW
/-- The counts clamped from below by one. -/
def vCs (A3 : FVec Ideal S2x1x128 .f32) : FVec Ideal S128 .f32 := maximumf (vC A3) oneV
/-- The centres: the sums over the clamped counts. -/
def vCen (A2 : FVec Ideal S2x128x128 .f32) (A3 : FVec Ideal S2x1x128 .f32) : FVec Ideal S128x128 .f32 :=
  Host.divf (vS A2) (broadcastInDim S128x128 ![0, 1] bcast_S128x1_S128x128_0_1 (broadcastInDim S128x1 ![0] bcast_S128_S128x1_0 (vCs A3)))
/-- The centres' clamped norms. -/
def vNrm (A2 : FVec Ideal S2x128x128 .f32) (A3 : FVec Ideal S2x1x128 .f32) : FVec Ideal S128 .f32 :=
  maximumf (Host.sqrt (Host.reduceAdd (F := Ideal) (mulf (vCen A2 A3) (vCen A2 A3)) zeroW reducesTo_S128x128_S128_d1 h_S_))
    (broadcastInDim S128 ![] bcast_S_S128 epsW)
/-- The lanes' cosine sums. -/
def vCos (A2 : FVec Ideal S2x128x128 .f32) (A3 : FVec Ideal S2x1x128 .f32) (A4 : FVec Ideal S2x128x128 .f32) : FVec Ideal S128 .f32 :=
  Host.divf (Host.reduceAdd (F := Ideal) (mulf (vS A4) (vCen A2 A3)) zeroW reducesTo_S128x128_S128_d1 h_S_) (vNrm A2 A3)
/-- Which lanes count: those with more than one point. -/
def vVal (A3 : FVec Ideal S2x1x128 .f32) : IVec S128 1 := cmpf .ogt (vC A3) oneV
/-- The lanes' terms. -/
def vTerm (A2 : FVec Ideal S2x128x128 .f32) (A3 : FVec Ideal S2x1x128 .f32) (A4 : FVec Ideal S2x128x128 .f32) : FVec Ideal S128 .f32 :=
  select (vVal A3) (subf oneV (Host.divf (vCos A2 A3 A4) (vCs A3))) (broadcastInDim S128 ![] bcast_S_S128 (id zeroW))
/-- The host operations after the region, composed. -/
def tailFn (A2 : FVec Ideal S2x128x128 .f32) (A3 : FVec Ideal S2x1x128 .f32) (A4 : FVec Ideal S2x128x128 .f32) : FVec Ideal S_ .f32 :=
  Host.divf (Host.reduceAdd (F := Ideal) (vTerm A2 A3 A4) zeroW reducesTo_S128_S_d0 h_S_)
    (maximumf (Host.reduceAdd (F := Ideal) (uitofp .f32 (vVal A3)) zeroW reducesTo_S128_S_d0 h_S_) oneW)

/-! ### Each read at an index -/

/-- The lane's count, sum and sum of unit rows from the arrays. -/
abbrev cntA (A3 : FVec Ideal S2x1x128 .f32) (b : Fin 128) : EReal := ∑ cc : Fin 2, A3 (ix3 cc (0 : Fin 1) b)
abbrev sumA (A : FVec Ideal S2x128x128 .f32) (b d : Fin 128) : EReal := ∑ cc : Fin 2, A (ix3 cc b d)

theorem vS_apply (A : FVec Ideal S2x128x128 .f32) (b d : Fin 128) : vS A (ix2 b d) = sumA A b d := by
  unfold vS
  simp only [Host.reduceAdd, Ideal.hostReduceAdd_def]
  rw [Ideal.hostReduceAdd_single reducesTo_S2x128x128_S128x128_d0 (by decide)]
  refine (congrArg (· + _) Ideal.ofBits_zero_f32).trans ?_
  rw [zero_add]
  refine Finset.sum_congr rfl fun k _ => ?_
  exact congrArg A (funext fun a => Fin.ext (by match a with | ⟨0, _⟩ => rfl | ⟨1, _⟩ => rfl | ⟨2, _⟩ => rfl))

theorem vC1_apply (A3 : FVec Ideal S2x1x128 .f32) (b : Fin 128) : vC1 A3 (ix2 (0 : Fin 1) b) = cntA A3 b := by
  unfold vC1
  simp only [Host.reduceAdd, Ideal.hostReduceAdd_def]
  rw [Ideal.hostReduceAdd_single reducesTo_S2x1x128_S1x128_d0 (by decide)]
  refine (congrArg (· + _) Ideal.ofBits_zero_f32).trans ?_
  rw [zero_add]
  refine Finset.sum_congr rfl fun k _ => ?_
  exact congrArg A3 (funext fun a => Fin.ext (by match a with | ⟨0, _⟩ => rfl | ⟨1, _⟩ => rfl | ⟨2, _⟩ => rfl))

theorem vC_apply (A3 : FVec Ideal S2x1x128 .f32) (b : Fin 128) : vC A3 (ix1 b) = cntA A3 b := by
  unfold vC
  exact (shapeCast_1a_a_apply (vC1 A3) shapeCasts_S1x128_S128 b).trans (vC1_apply A3 b)

theorem oneV_apply (i : S128.Idx) : oneV i = oneE := rfl

theorem vCs_apply (A3 : FVec Ideal S2x1x128 .f32) (b : Fin 128) : vCs A3 (ix1 b) = max (cntA A3 b) oneE := by
  unfold vCs
  exact congrArg (max · oneE) (vC_apply A3 b)

theorem vCen_apply (A2 : FVec Ideal S2x128x128 .f32) (A3 : FVec Ideal S2x1x128 .f32) (b d : Fin 128) :
    vCen A2 A3 (ix2 b d) = cenOf (cntA A3 b) (sumA A2 b) d := by
  unfold vCen cenOf
  show Ideal.div (vS A2 (ix2 b d)) _ = _
  refine congrArg₂ Ideal.div (vS_apply A2 b d) ?_
  refine (broadcastInDim_apply (t := S128x128) ![0, 1] bcast_S128x1_S128x128_0_1 _ (ix2 b d) (ix2 b (0 : Fin 1))
    (fun a => by match a with | ⟨0, _⟩ => rfl | ⟨1, _⟩ => rfl)).trans ?_
  refine (broadcastInDim_apply (t := S128x1) ![0] bcast_S128_S128x1_0 _ (ix2 b (0 : Fin 1)) (ix1 b)
    (fun a => by match a with | ⟨0, _⟩ => rfl)).trans ?_
  exact vCs_apply A3 b

/-- A [128,128] array summed along its rows. -/
theorem rowSum_apply (X : FVec Ideal S128x128 .f32) (b : Fin 128) :
    Host.reduceAdd (F := Ideal) X zeroW reducesTo_S128x128_S128_d1 h_S_ (ix1 b) = ∑ d : Fin 128, X (ix2 b d) := by
  simp only [Host.reduceAdd, Ideal.hostReduceAdd_def]
  rw [Ideal.hostReduceAdd_single reducesTo_S128x128_S128_d1 (by decide)]
  refine (congrArg (· + _) Ideal.ofBits_zero_f32).trans ?_
  rw [zero_add]
  refine Finset.sum_congr rfl fun k _ => ?_
  exact congrArg X (funext fun a => Fin.ext (by match a with | ⟨0, _⟩ => rfl | ⟨1, _⟩ => rfl))

/-- A [128] index is its one coordinate. -/
def idxEquiv1 : S128.Idx ≃ Fin 128 where
  toFun j := j 0
  invFun b := ix1 b
  left_inv j := (eq_ix1 j).symm
  right_inv _ := rfl

/-- A [128] array summed. -/
theorem laneSum_apply (X : FVec Ideal S128 .f32) (j : S_.Idx) :
    Host.reduceAdd (F := Ideal) X zeroW reducesTo_S128_S_d0 h_S_ j = ∑ b : Fin 128, X (ix1 b) := by
  simp only [Host.reduceAdd, Ideal.hostReduceAdd_def]
  rw [Ideal.hostReduceAdd_total reducesTo_S128_S_d0 (fun b => b.elim0)]
  refine (congrArg (· + _) Ideal.ofBits_zero_f32).trans ?_
  rw [zero_add]
  exact Fintype.sum_equiv idxEquiv1 _ _ fun i => congrArg X (eq_ix1 i)

theorem vNrm_apply (A2 : FVec Ideal S2x128x128 .f32) (A3 : FVec Ideal S2x1x128 .f32) (b : Fin 128) :
    vNrm A2 A3 (ix1 b) = cnrmOf (cntA A3 b) (sumA A2 b) := by
  unfold vNrm cnrmOf
  show max (Ideal.sqrt (Host.reduceAdd (F := Ideal) (mulf (vCen A2 A3) (vCen A2 A3)) zeroW reducesTo_S128x128_S128_d1 h_S_ (ix1 b))) epsE = _
  refine congrArg (fun x => max (Ideal.sqrt x) epsE) ?_
  refine (rowSum_apply _ b).trans (Finset.sum_congr rfl fun d _ => ?_)
  show vCen A2 A3 (ix2 b d) * vCen A2 A3 (ix2 b d) = _
  rw [vCen_apply]

theorem vCos_apply (A2 : FVec Ideal S2x128x128 .f32) (A3 : FVec Ideal S2x1x128 .f32) (A4 : FVec Ideal S2x128x128 .f32) (b : Fin 128) :
    vCos A2 A3 A4 (ix1 b) = cosOf (cntA A3 b) (sumA A2 b) (sumA A4 b) := by
  unfold vCos cosOf
  show Ideal.div (Host.reduceAdd (F := Ideal) (mulf (vS A4) (vCen A2 A3)) zeroW reducesTo_S128x128_S128_d1 h_S_ (ix1 b)) (vNrm A2 A3 (ix1 b)) = _
  refine congrArg₂ Ideal.div ?_ (vNrm_apply A2 A3 b)
  refine (rowSum_apply _ b).trans (Finset.sum_congr rfl fun d _ => ?_)
  show vS A4 (ix2 b d) * vCen A2 A3 (ix2 b d) = _
  rw [vS_apply, vCen_apply]

theorem vVal_apply (A3 : FVec Ideal S2x1x128 .f32) (b : Fin 128) :
    vVal A3 (ix1 b) = FloatOps.cmpf (F := Ideal) (φ := .f32) .ogt (cntA A3 b) oneE := by
  unfold vVal
  show FloatOps.cmpf (F := Ideal) (φ := .f32) .ogt (vC A3 (ix1 b)) oneE = _
  rw [vC_apply]

theorem vTerm_apply (A2 : FVec Ideal S2x128x128 .f32) (A3 : FVec Ideal S2x1x128 .f32) (A4 : FVec Ideal S2x128x128 .f32) (b : Fin 128) :
    vTerm A2 A3 A4 (ix1 b) = term (cntA A3 b) (cosOf (cntA A3 b) (sumA A2 b) (sumA A4 b)) := by
  unfold vTerm term
  show Scalar.select (vVal A3 (ix1 b)) (oneE - Ideal.div (vCos A2 A3 A4 (ix1 b)) (vCs A3 (ix1 b))) (Ideal.ofBits .f32 0x00000000#32) = _
  rw [vVal_apply, vCos_apply, vCs_apply, Ideal.ofBits_zero_f32]

theorem tailFn_apply (A2 : FVec Ideal S2x128x128 .f32) (A3 : FVec Ideal S2x1x128 .f32) (A4 : FVec Ideal S2x128x128 .f32) (j : S_.Idx) :
    tailFn A2 A3 A4 j = lossLanes (n := 128) (cntA A3) (fun b => cosOf (cntA A3 b) (sumA A2 b) (sumA A4 b)) := by
  unfold tailFn lossLanes lossOf
  show Ideal.div (Host.reduceAdd (F := Ideal) (vTerm A2 A3 A4) zeroW reducesTo_S128_S_d0 h_S_ j)
    (max (Host.reduceAdd (F := Ideal) (uitofp .f32 (vVal A3)) zeroW reducesTo_S128_S_d0 h_S_ j) oneE) = _
  refine congrArg₂ (fun x y => Ideal.div x (max y oneE)) ?_ ?_
  · exact (laneSum_apply _ j).trans (Finset.sum_congr rfl fun b _ => vTerm_apply A2 A3 A4 b)
  · refine (laneSum_apply _ j).trans (Finset.sum_congr rfl fun b _ => ?_)
    show FloatOps.uitofp (F := Ideal) (w := 1) .f32 (vVal A3 (ix1 b)) = _
    rw [vVal_apply]
    rfl

/-- The composed operations give the loss of the three arrays. -/
theorem tailFn_eq (A2 : FVec Ideal S2x128x128 .f32) (A3 : FVec Ideal S2x1x128 .f32) (A4 : FVec Ideal S2x128x128 .f32) (j : S_.Idx) :
    tailFn A2 A3 A4 j = lossOfArrays A2 A3 A4 := tailFn_apply A2 A3 A4 j

/-- The host operations after the region, from any contents of the buffers: the composed function of the three arrays. -/
theorem after_tail (W : Valuation τ sig (Elt Ideal)) :
    (StableHlo.after (List.flatten [hostOps1 (F := Ideal), hostOps1_1 (F := Ideal), hostOps1_2 (F := Ideal)]) W (Proc.devRef .tc main_v29) : Vec Ideal S_ .f32)
      = tailFn (W (Proc.devRef .tc main_v1_0)) (W (Proc.devRef .tc main_v1_1)) (W (Proc.devRef .tc main_v1_2)) := by
  simp only [Gen.hostOps1, Gen.hostOps1_1, Gen.hostOps1_2, List.flatten_cons, List.flatten_nil, List.append_nil, List.cons_append, List.nil_append]
  after_results_simp
  rfl

end Ops

/-- What the host operations after the region leave in the result buffer: the loss of the region's three arrays. -/
theorem tail_result (c : Dev nD) :
    (Pipeline.afterTail₀ cfgs (dats m) 0 (V0 m) [hostOps1, hostOps1_1, hostOps1_2] c main_v29 : Vec Ideal S_ .f32)
      = fun _ => lossOfArrays ((dats m 0 c).arrAt 2 cfg0.N) ((dats m 0 c).arrAt 3 cfg0.N) ((dats m 0 c).arrAt 4 cfg0.N) := by
  have h2 := Pipeline.withArrays_arr spec0 launch0.win.arr_inj c (V0 m c) (fun w => (dats m 0 c).arrAt w cfg0.N) 2
  have h3 := Pipeline.withArrays_arr spec0 launch0.win.arr_inj c (V0 m c) (fun w => (dats m 0 c).arrAt w cfg0.N) 3
  have h4 := Pipeline.withArrays_arr spec0 launch0.win.arr_inj c (V0 m c) (fun w => (dats m 0 c).arrAt w cfg0.N) 4
  unfold Pipeline.afterTail₀
  refine (Ops.after_tail _).trans ?_
  funext j
  refine (Ops.tailFn_eq _ _ _ j).trans ?_
  exact congr (congr (congrArg lossOfArrays h2) h3) h4

end Cert.KernelIdeal.Tail

end
-- ==== Proof.KernelRun.lean ====
/-
  The kernel program's run with its result named: every weakly fair execution ends with the result buffer at the
  kernel's loss `lossK` of the launch's points and block words, the arguments unchanged. The region leaves the three
  arrays of per-half sums; the host operations after it turn them into the loss.
-/
import proofs.«408775_j4844723110183_2_alg».proof.Proof.Gen.KernelIdeal.Frame
import proofs.«408775_j4844723110183_2_alg».proof.Proof.Arrays
import proofs.«408775_j4844723110183_2_alg».proof.Proof.Tail

noncomputable section

open scoped BigOperators

namespace Cert.KernelIdeal.KernelRun

open Idealize.ShloMosaic Idealize.ShloMosaic.TcCoe Idealize.ShloMosaic.ValueIdx Idealize.SL.Sem Cert.KernelIdeal Cert.KernelIdeal.Gen Cert.SegCos
open Cert.KernelIdeal.Arrays Cert.KernelIdeal.Tail

variable (m : (ℓ : Loc nD τ sig) → Buf (Elt Ideal) ℓ) (ρ : Dev nD → PrngReg)

/-- The loss of the region's three arrays is the kernel's loss of the launch's points and block words. -/
theorem lossOfArrays_final (c : Dev nD) :
    lossOfArrays ((dats m 0 c).arrAt 2 cfg0.N) ((dats m 0 c).arrAt 3 cfg0.N) ((dats m 0 c).arrAt 4 cfg0.N)
      = lossK (zOf m c) (idsOf m c) := by
  unfold lossOfArrays lossK
  simp only [final2 m c, final3 m c, final4 m c]

theorem run_value : θ_run defs (onTc (τ := τ) (main (F := Ideal))) ⟨m, fun _ => 0, ρ⟩ (fun r => ∀ c : Dev nD,
      r.2.mem ((c.tc : Thread nD τ).loc main_v29) = (fun _ => lossK (zOf m c) (idsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v29 (Pipeline.mem_restRefs_of main_v29 (by decide) (by decide))).trans
        ((tail_result m c).trans (funext fun _ => lossOfArrays_final m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelRun

end
-- ==== Proof.Reindex.lean ====
/-
  Index bookkeeping between the kernel's tiles and the reference's blocks. The 2 x 100 x 5000 rows of the tiles are the
  1,000,000 points, each once; lane `b` below 100 masks exactly the points of block `b`, a lane from 100 on masks
  nothing. So the two halves' sums add up to the block's count, sum and unit-row sum on a real lane and to zero on a
  phantom lane, and a lane whose count is zero contributes nothing to the loss.
-/
import proofs.«408775_j4844723110183_2_alg».proof.Proof.Spec
import Mathlib.Algebra.BigOperators.Group.Finset.Basic
import Mathlib.Algebra.BigOperators.Fin

noncomputable section

open scoped BigOperators

namespace Cert.SegCos

open Idealize.ShloMosaic

/-- The word of the constant one denotes 1. -/
theorem oneE_eq : oneE = 1 := by
  unfold oneE
  simp [Ideal.ofBits, Ideal.ieee, -EReal.coe_mul]
  norm_num

/-- A word is the 32-bit word of a small number exactly when its signed reading is that number. -/
theorem word_eq_iff (w : BitVec 32) (n : ℕ) (hn : n < 128) : w = BitVec.ofNat 32 n ↔ w.toInt = (n : Int) := by
  have hm : (BitVec.ofNat 32 n).toNat = n := by
    rw [BitVec.toNat_ofNat]
    exact Nat.mod_eq_of_lt (by omega)
  have h : (BitVec.ofNat 32 n).toInt = (n : Int) := by
    rw [BitVec.toInt_eq_toNat_of_lt (by rw [hm]; omega), hm]
  rw [← h]
  exact BitVec.toInt_inj.symm

/-- On a real lane the mask is membership in the block. -/
theorem ohw_real (w : BitVec 32) (b : Fin 128) (hb : b.val < 100) : ohw w b = if w.toInt = (b.val : Int) then 1 else 0 := by
  unfold ohw
  have hiff := word_eq_iff w b.val b.isLt
  by_cases hw : w.toInt = (b.val : Int)
  · rw [if_pos hw, if_pos ⟨hiff.mpr hw, hb⟩]
  · rw [if_neg hw, if_neg (fun h => hw (hiff.mp h.1))]

/-- A phantom lane masks nothing. -/
theorem ohw_phantom (w : BitVec 32) (b : Fin 128) (hb : 100 ≤ b.val) : ohw w b = 0 := by
  unfold ohw
  exact if_neg (fun h => absurd h.2 (by omega))

/-- A sum over `m * n` indices is the double sum over the pairs, the pair `(a, b)` standing at `b + n * a`. -/
theorem sum_fin_mul {M : Type} [AddCommMonoid M] (m n : ℕ) (f : Fin (m * n) → M) :
    ∑ i : Fin (m * n), f i = ∑ a : Fin m, ∑ b : Fin n, f (finProdFinEquiv (a, b)) := by
  rw [← Fintype.sum_prod_type', ← finProdFinEquiv.sum_comp]

/-- The rows of the tiles are the points, each once. -/
theorem sum_tiles (g : Pts → EReal) :
    ∑ cc : Fin 2, ∑ t : Fin 100, ∑ r : Fin 5000, g (rowOf (pt cc t) r) = ∑ i : Pts, g i := by
  have h1 : ∑ i : Pts, g i = ∑ n : Fin 200, ∑ r : Fin 5000, g (rowOf n r) := by
    refine (sum_fin_mul 200 5000 g).trans ?_
    refine Finset.sum_congr rfl (fun n _ => Finset.sum_congr rfl (fun r _ => ?_))
    congr 1
    apply Fin.ext
    simp [finProdFinEquiv, rowOf]
    ring
  have h2 : ∑ n : Fin 200, ∑ r : Fin 5000, g (rowOf n r)
      = ∑ cc : Fin 2, ∑ t : Fin 100, ∑ r : Fin 5000, g (rowOf (pt cc t) r) := by
    refine (sum_fin_mul 2 100 (fun n : Fin 200 => ∑ r : Fin 5000, g (rowOf n r))).trans ?_
    refine Finset.sum_congr rfl (fun cc _ => Finset.sum_congr rfl (fun t _ => ?_))
    have : (finProdFinEquiv (cc, t) : Fin (2 * 100)) = pt cc t := by
      apply Fin.ext
      simp [finProdFinEquiv, pt]
      ring
    rw [this]
  rw [h1, h2]

/-- The two halves' counts add up to the block's count on a real lane, to zero on a phantom lane. -/
theorem kC_total (ids : Ids) (b : Fin 128) : ∑ cc : Fin 2, kC ids cc b = if b.val < 100 then cnt ids b.val else 0 := by
  unfold kC tileC
  refine (sum_tiles (fun i => ohw (ids i) b)).trans ?_
  by_cases hb : b.val < 100
  · rw [if_pos hb]
    unfold cnt hit
    refine Finset.sum_congr rfl (fun i _ => ?_)
    rw [ohw_real _ _ hb, oneE_eq]
  · rw [if_neg hb]
    exact Finset.sum_eq_zero (fun i _ => ohw_phantom _ _ (by omega))

theorem kS_total (z : Z) (ids : Ids) (b d : Fin 128) :
    ∑ cc : Fin 2, kS z ids cc b d = if b.val < 100 then sm z ids b.val d else 0 := by
  unfold kS tileS
  refine (sum_tiles (fun i => ohw (ids i) b * z i d)).trans ?_
  by_cases hb : b.val < 100
  · rw [if_pos hb]
    unfold sm hit
    refine Finset.sum_congr rfl (fun i _ => ?_)
    rw [ohw_real _ _ hb, ite_mul, one_mul, zero_mul]
  · rw [if_neg hb]
    refine Finset.sum_eq_zero (fun i _ => ?_)
    rw [ohw_phantom _ _ (by omega), zero_mul]

theorem kU_total (z : Z) (ids : Ids) (b d : Fin 128) :
    ∑ cc : Fin 2, kU z ids cc b d = if b.val < 100 then us z ids b.val d else 0 := by
  unfold kU tileU
  refine (sum_tiles (fun i => ohw (ids i) b * Ideal.div (z i d) (zn z i))).trans ?_
  by_cases hb : b.val < 100
  · rw [if_pos hb]
    unfold us hit
    refine Finset.sum_congr rfl (fun i _ => ?_)
    rw [ohw_real _ _ hb, ite_mul, one_mul, zero_mul]
  · rw [if_neg hb]
    refine Finset.sum_eq_zero (fun i _ => ?_)
    rw [ohw_phantom _ _ (by omega), zero_mul]

/-- Zero is not above one. -/
theorem cmp_zero_one : FloatOps.cmpf (F := Ideal) (φ := .f32) .ogt (0 : EReal) oneE = 0#1 := by
  show Ideal.cmp .ogt 0 oneE = 0#1
  rw [oneE_eq]
  have h : ¬ ((1 : EReal) < 0) := not_lt.mpr zero_le_one
  simp [Ideal.cmp, h]

/-- A lane with no point contributes nothing. -/
theorem term_zero (s : EReal) : term 0 s = 0 := by
  unfold term
  rw [cmp_zero_one]
  exact ValueIdx.select_zero _ _

theorem vld_zero : vld 0 = 0 := by
  unfold vld
  rw [cmp_zero_one]
  show ((((0#1 : BitVec 1).toNat : ℝ)) : EReal) = 0
  simp

/-- A sum over 128 lanes whose last 28 entries are zero is the sum over the first 100. -/
theorem sum_128_100 (F : Fin 128 → EReal) (hF : ∀ b : Fin 128, 100 ≤ b.val → F b = 0) :
    ∑ b : Fin 128, F b = ∑ b : Fin 100, F (Fin.castLE (by decide) b) := by
  have h := Fin.sum_univ_add (a := 100) (b := 28) (fun i : Fin (100 + 28) => F i)
  refine h.trans ?_
  have h0 : ∑ i : Fin 28, F (Fin.natAdd 100 i) = 0 :=
    Finset.sum_eq_zero (fun i _ => hF _ (by simp [Fin.natAdd]))
  rw [h0, add_zero]
  rfl

/-- The loss over 128 lanes whose last 28 counts are zero is the loss over the first 100. -/
theorem lossLanes_128_100 (C cs : Fin 128 → EReal) (hC : ∀ b : Fin 128, 100 ≤ b.val → C b = 0) :
    lossLanes C cs = lossLanes (n := 100) (fun b => C (Fin.castLE (by decide) b)) (fun b => cs (Fin.castLE (by decide) b)) := by
  unfold lossLanes
  rw [sum_128_100 (fun b => term (C b) (cs b)) (fun b hb => by rw [hC b hb]; exact term_zero _),
    sum_128_100 (fun b => vld (C b)) (fun b hb => by rw [hC b hb]; exact vld_zero)]

end Cert.SegCos

end
-- ==== Proof.CosLaw.lean ====
/-
  The law that joins the two orders of the cosine sum. For finite points every quantity of a block is a real number and
  both clamped norms are positive reals, so dividing each point by its norm before pairing it with the centre, and
  pairing first and dividing by both norms after, give the same sum over the block:
  `(sum_d (sum_i z_i,d / |z_i|) c_d) / |c| = sum_i (sum_d z_i,d c_d) / (|z_i| |c|)`.
-/
import proofs.«408775_j4844723110183_2_alg».proof.Proof.Spec
import Mathlib.Algebra.BigOperators.Group.Finset.Basic
import Mathlib.Analysis.SpecialFunctions.Pow.Real

noncomputable section

open scoped BigOperators

namespace Cert.SegCos

open Idealize.ShloMosaic

namespace CosLawAux

/-! ### Real numbers inside the extended reals -/

/-- The coercion of a finite sum of reals is the sum of the coercions. -/
theorem coe_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max' (x y : ℝ) : ((max x y : ℝ) : EReal) = max (x : EReal) (y : EReal) :=
  EReal.coe_strictMono.monotone.map_max

/-- The coercion passes through a choice between a real and zero. -/
theorem coe_ite0 (p : Prop) [Decidable p] (x : ℝ) :
    (((if p then x else 0 : ℝ)) : EReal) = if p then (x : EReal) else 0 := by
  split_ifs <;> simp

/-- The quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul, mul_one_div]

/-- The square root of a real that is not negative is the real square root. -/
theorem sqrt_coe_nonneg {r : ℝ} (h : 0 ≤ r) : Ideal.sqrt (r : EReal) = ((Real.sqrt r : ℝ) : EReal) := by
  rw [Ideal.sqrt_coe, if_neg (not_lt.mpr h)]

/-! ### The two constants -/

/-- The clamp as a real number: the word's significand times its power of two. -/
def epsR : ℝ := 11258999 * (2 : ℝ) ^ (-50 : Int)

theorem epsR_pos : 0 < epsR := by unfold epsR; positivity

theorem epsE_eq : epsE = (epsR : EReal) := by
  simp [epsE, epsR, Ideal.ofBits, Ideal.ieee, -EReal.coe_mul]

theorem oneE_eq : oneE = ((1 : ℝ) : EReal) := by
  simp [oneE, Ideal.ofBits, Ideal.ieee, -EReal.coe_mul]
  norm_num

/-! ### Clamped norms of real vectors -/

/-- The root of a sum of squares of reals is the real root. -/
theorem sqrt_sumsq {ι : Type*} [Fintype ι] (f : ι → ℝ) :
    Ideal.sqrt (∑ d : ι, (f d : EReal) * (f d : EReal)) = ((Real.sqrt (∑ d : ι, f d * f d) : ℝ) : EReal) := by
  have h : (∑ d : ι, (f d : EReal) * (f d : EReal)) = ((∑ d : ι, f d * f d : ℝ) : EReal) := by
    rw [coe_sum']
    exact Finset.sum_congr rfl fun d _ => (EReal.coe_mul _ _).symm
  rw [h, sqrt_coe_nonneg (Finset.sum_nonneg fun d _ => mul_self_nonneg _)]

/-- The clamped norm of a real vector is a real number. -/
theorem clampNorm_coe {ι : Type*} [Fintype ι] (f : ι → ℝ) :
    max (Ideal.sqrt (∑ d : ι, (f d : EReal) * (f d : EReal))) epsE
      = ((max (Real.sqrt (∑ d : ι, f d * f d)) epsR : ℝ) : EReal) := by
  rw [sqrt_sumsq, epsE_eq, coe_max']

/-! ### The block's quantities as real numbers -/

/-- A real point's clamped norm. -/
def znR (zr : Pts → Fin 128 → ℝ) (i : Pts) : ℝ := max (Real.sqrt (∑ d : Fin 128, zr i d * zr i d)) epsR
/-- The number of points of the block, as a real. -/
def cntR (ids : Ids) (b : ℕ) : ℝ := ∑ i : Pts, if hit ids i b then (1 : ℝ) else 0
/-- The sum of the block's real points. -/
def smR (zr : Pts → Fin 128 → ℝ) (ids : Ids) (b : ℕ) (d : Fin 128) : ℝ :=
  ∑ i : Pts, if hit ids i b then zr i d else 0
/-- The sum of the block's real points each over its clamped norm. -/
def usR (zr : Pts → Fin 128 → ℝ) (ids : Ids) (b : ℕ) (d : Fin 128) : ℝ :=
  ∑ i : Pts, if hit ids i b then zr i d / znR zr i else 0
/-- The real centre. -/
def cenR (C : ℝ) (S : Fin 128 → ℝ) (d : Fin 128) : ℝ := S d / max C 1
/-- The real centre's clamped norm. -/
def cnrmR (C : ℝ) (S : Fin 128 → ℝ) : ℝ := max (Real.sqrt (∑ d : Fin 128, cenR C S d * cenR C S d)) epsR

theorem znR_pos (zr : Pts → Fin 128 → ℝ) (i : Pts) : 0 < znR zr i := by
  unfold znR; exact lt_max_of_lt_right epsR_pos

theorem cnrmR_pos (C : ℝ) (S : Fin 128 → ℝ) : 0 < cnrmR C S := by
  unfold cnrmR; exact lt_max_of_lt_right epsR_pos

theorem max_one_pos (C : ℝ) : 0 < max C 1 := lt_max_of_lt_right one_pos

theorem zn_coe (zr : Pts → Fin 128 → ℝ) (i : Pts) :
    zn (fun i d => ((zr i d : ℝ) : EReal)) i = ((znR zr i : ℝ) : EReal) := by
  unfold zn znR
  exact clampNorm_coe (zr i)

theorem cnt_coe (ids : Ids) (b : ℕ) : cnt ids b = ((cntR ids b : ℝ) : EReal) := by
  unfold cnt cntR
  rw [coe_sum']
  refine Finset.sum_congr rfl fun i _ => ?_
  rw [coe_ite0, oneE_eq]

theorem sm_coe (zr : Pts → Fin 128 → ℝ) (ids : Ids) (b : ℕ) (d : Fin 128) :
    sm (fun i d => ((zr i d : ℝ) : EReal)) ids b d = ((smR zr ids b d : ℝ) : EReal) := by
  unfold sm smR
  rw [coe_sum']
  refine Finset.sum_congr rfl fun i _ => ?_
  rw [coe_ite0]

theorem us_coe (zr : Pts → Fin 128 → ℝ) (ids : Ids) (b : ℕ) (d : Fin 128) :
    us (fun i d => ((zr i d : ℝ) : EReal)) ids b d = ((usR zr ids b d : ℝ) : EReal) := by
  unfold us usR
  rw [coe_sum']
  refine Finset.sum_congr rfl fun i _ => ?_
  rw [coe_ite0, zn_coe zr i, div_coe_coe _ (znR_pos zr i).ne']

theorem cenOf_coe (C : ℝ) (S : Fin 128 → ℝ) (d : Fin 128) :
    cenOf (C : EReal) (fun d => ((S d : ℝ) : EReal)) d = ((cenR C S d : ℝ) : EReal) := by
  unfold cenOf cenR
  rw [oneE_eq, ← coe_max', div_coe_coe _ (max_one_pos C).ne']

theorem cnrmOf_coe (C : ℝ) (S : Fin 128 → ℝ) :
    cnrmOf (C : EReal) (fun d => ((S d : ℝ) : EReal)) = ((cnrmR C S : ℝ) : EReal) := by
  unfold cnrmOf cnrmR
  have h : (∑ d : Fin 128, cenOf (C : EReal) (fun d => ((S d : ℝ) : EReal)) d
        * cenOf (C : EReal) (fun d => ((S d : ℝ) : EReal)) d)
      = ∑ d : Fin 128, ((cenR C S d : ℝ) : EReal) * ((cenR C S d : ℝ) : EReal) :=
    Finset.sum_congr rfl fun d _ => by rw [cenOf_coe C S d]
  rw [h]
  exact clampNorm_coe (cenR C S)

/-! ### The law over the reals -/

/-- Over the reals the two orders agree: the sums exchange and each quotient by two norms is a quotient by their
    product. -/
theorem cos_law_real (ids : Ids) (b : ℕ) (zr : Pts → Fin 128 → ℝ) (n : Pts → ℝ) (c : Fin 128 → ℝ) (N : ℝ) :
    (∑ d : Fin 128, (∑ i : Pts, if hit ids i b then zr i d / n i else 0) * c d) / N
      = ∑ i : Pts, if hit ids i b then (∑ d : Fin 128, zr i d * c d) / (n i * N) else 0 := by
  rw [Finset.sum_div]
  simp_rw [Finset.sum_mul, Finset.sum_div]
  rw [Finset.sum_comm]
  refine Finset.sum_congr rfl fun i _ => ?_
  by_cases hi : hit ids i b
  · simp only [if_pos hi]
    refine Finset.sum_congr rfl fun d _ => ?_
    ring
  · simp only [if_neg hi]
    simp

/-! ### The law -/

/-- The law for points given as coercions of reals. -/
theorem cos_law_coe (zr : Pts → Fin 128 → ℝ) (ids : Ids) (b : ℕ) :
    cosOf (cnt ids b) (sm (fun i d => ((zr i d : ℝ) : EReal)) ids b) (us (fun i d => ((zr i d : ℝ) : EReal)) ids b)
      = cosR (fun i d => ((zr i d : ℝ) : EReal)) ids b := by
  have hC : cnt ids b = ((cntR ids b : ℝ) : EReal) := cnt_coe ids b
  have hS : sm (fun i d => ((zr i d : ℝ) : EReal)) ids b = fun d => ((smR zr ids b d : ℝ) : EReal) :=
    funext (sm_coe zr ids b)
  have hcen : ∀ d : Fin 128, cenOf (cnt ids b) (sm (fun i d => ((zr i d : ℝ) : EReal)) ids b) d
      = ((cenR (cntR ids b) (smR zr ids b) d : ℝ) : EReal) := fun d => by
    rw [hC, hS]; exact cenOf_coe (cntR ids b) (smR zr ids b) d
  have hN : cnrmOf (cnt ids b) (sm (fun i d => ((zr i d : ℝ) : EReal)) ids b)
      = ((cnrmR (cntR ids b) (smR zr ids b) : ℝ) : EReal) := by
    rw [hC, hS]; exact cnrmOf_coe (cntR ids b) (smR zr ids b)
  have hNpos : 0 < cnrmR (cntR ids b) (smR zr ids b) := cnrmR_pos _ _
  have hL : cosOf (cnt ids b) (sm (fun i d => ((zr i d : ℝ) : EReal)) ids b)
        (us (fun i d => ((zr i d : ℝ) : EReal)) ids b)
      = (((∑ d : Fin 128, usR zr ids b d * cenR (cntR ids b) (smR zr ids b) d)
          / cnrmR (cntR ids b) (smR zr ids b) : ℝ) : EReal) := by
    unfold cosOf
    rw [hN]
    have h1 : (∑ d : Fin 128, us (fun i d => ((zr i d : ℝ) : EReal)) ids b d
          * cenOf (cnt ids b) (sm (fun i d => ((zr i d : ℝ) : EReal)) ids b) d)
        = ((∑ d : Fin 128, usR zr ids b d * cenR (cntR ids b) (smR zr ids b) d : ℝ) : EReal) := by
      rw [coe_sum']
      refine Finset.sum_congr rfl fun d _ => ?_
      rw [us_coe zr ids b d, hcen d, EReal.coe_mul]
    rw [h1, div_coe_coe _ hNpos.ne']
  have hR : cosR (fun i d => ((zr i d : ℝ) : EReal)) ids b
      = ((∑ i : Pts, if hit ids i b then
            (∑ d : Fin 128, zr i d * cenR (cntR ids b) (smR zr ids b) d)
              / (znR zr i * cnrmR (cntR ids b) (smR zr ids b)) else 0 : ℝ) : EReal) := by
    unfold cosR
    rw [coe_sum']
    refine Finset.sum_congr rfl fun i _ => ?_
    have h2 : (∑ d : Fin 128, ((zr i d : ℝ) : EReal)
          * cenOf (cnt ids b) (sm (fun i d => ((zr i d : ℝ) : EReal)) ids b) d)
        = ((∑ d : Fin 128, zr i d * cenR (cntR ids b) (smR zr ids b) d : ℝ) : EReal) := by
      rw [coe_sum']
      refine Finset.sum_congr rfl fun d _ => ?_
      rw [hcen d, EReal.coe_mul]
    rw [coe_ite0, hN, zn_coe zr i, ← EReal.coe_mul (znR zr i) (cnrmR (cntR ids b) (smR zr ids b)), h2,
      div_coe_coe _ (mul_pos (znR_pos zr i) hNpos).ne']
  rw [hL, hR]
  refine congrArg _ ?_
  unfold usR
  exact cos_law_real ids b zr (znR zr) (cenR (cntR ids b) (smR zr ids b)) (cnrmR (cntR ids b) (smR zr ids b))

end CosLawAux

/-- For finite points, a block's cosine sum paired once with the centre is its cosine sum point by point. -/
theorem cos_law (z : Z) (ids : Ids) (hz : ∀ i d, ∃ r : ℝ, z i d = (r : EReal)) (b : ℕ) :
    cosOf (cnt ids b) (sm z ids b) (us z ids b) = cosR z ids b := by
  choose zr hzr using hz
  have hz' : z = fun i d => ((zr i d : ℝ) : EReal) := funext fun i => funext fun d => hzr i d
  rw [hz']
  exact CosLawAux.cos_law_coe zr ids b

end Cert.SegCos

end
-- ==== Proof.Bridge.lean ====
/-
  The kernel's loss is the reference's loss, for finite points. The two halves' sums add up, lane by lane, to the
  block's count, sum and unit-row sum on the first 100 lanes and to zero on the last 28, which therefore contribute
  nothing; on a real lane the centre paired once with the unit-row sums is the point-by-point cosine sum.
-/
import proofs.«408775_j4844723110183_2_alg».proof.Proof.Reindex
import proofs.«408775_j4844723110183_2_alg».proof.Proof.CosLaw

noncomputable section

open scoped BigOperators

namespace Cert.SegCos

open Idealize.ShloMosaic

theorem lossK_eq_lossR (z : Z) (ids : Ids) (hz : ∀ i d, ∃ r : ℝ, z i d = (r : EReal)) : lossK z ids = lossR z ids := by
  unfold lossK lossR
  rw [lossLanes_128_100 _ _ (fun b hb => by rw [kC_total, if_neg (by omega)])]
  have hlt : ∀ b : Fin 100, (Fin.castLE (by decide : 100 ≤ 128) b).val < 100 := fun b => b.isLt
  have hC : (fun b : Fin 100 => ∑ cc : Fin 2, kC ids cc (Fin.castLE (by decide : 100 ≤ 128) b)) = fun b => cnt ids b.val := by
    funext b
    rw [kC_total, if_pos (hlt b)]
    rfl
  have hcs : (fun b : Fin 100 => cosOf (∑ cc : Fin 2, kC ids cc (Fin.castLE (by decide : 100 ≤ 128) b))
      (fun d => ∑ cc : Fin 2, kS z ids cc (Fin.castLE (by decide : 100 ≤ 128) b) d)
      (fun d => ∑ cc : Fin 2, kU z ids cc (Fin.castLE (by decide : 100 ≤ 128) b) d)) = fun b => cosR z ids b.val := by
    funext b
    have e1 : (fun d => ∑ cc : Fin 2, kS z ids cc (Fin.castLE (by decide : 100 ≤ 128) b) d) = sm z ids b.val := by
      funext d; rw [kS_total, if_pos (hlt b)]; rfl
    have e2 : (fun d => ∑ cc : Fin 2, kU z ids cc (Fin.castLE (by decide : 100 ≤ 128) b) d) = us z ids b.val := by
      funext d; rw [kU_total, if_pos (hlt b)]; rfl
    rw [kC_total, if_pos (hlt b), e1, e2]
    exact cos_law z ids hz b.val
  rw [hC, hcs]

end Cert.SegCos

end
-- ==== Proof.Finite.lean ====
/-
  The precondition read at an element: every coordinate of every point is a real number. The precondition says that
  `|z| < +inf` holds at every index (a reduction by `and` that is 1 had a 1 at every index); on the extended reals
  `max x (-x) < ⊤` leaves only the reals.
-/
import proofs.«408775_j4844723110183_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Cert.Pre_finite_inputs

instance : Subsingleton S_.Idx := ⟨fun a b => funext fun d => d.elim0⟩

/-- The word of `+inf` denotes the top of the extended reals. -/
theorem inf_eq : Ideal.ofBits .f32 0x7F800000#32 = (⊤ : EReal) := by
  simp [Ideal.ofBits, Ideal.ieee]

/-- An extended real whose absolute value is below `⊤` is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- Where the printed precondition holds, every entry of the float argument is a real. -/
theorem real_of_pre [Facts] (x : FVec Ideal S1000000x128 .f32) (y : IVec S1000000 32)
    (h : fn (F := Ideal) x y = fun _ => 1#1) (j : S1000000x128.Idx) : ∃ r : ℝ, x j = (r : EReal) := by
  have h0 := congrFun h ix0
  dsimp only [fn] at h0
  have hj := Host.reduce_andi_all _ _ _ _ _ h0 j
  have hb : (broadcastInDim S1000000x128 ![] Facts.bcast_S_S1000000x128 (constant (F := Ideal) S_ .f32 0x7F800000#32)) j
      = (⊤ : EReal) := by
    rw [broadcastInDim_apply _ Facts.bcast_S_S1000000x128 _ j (fun a => a.elim0) (fun a => a.elim0)]
    exact inf_eq
  have hc : Ideal.cmp .olt (max (x j) (-(x j))) (⊤ : EReal) = 1#1 := by
    rw [← hb]; exact hj
  refine real_of_abs_lt_top (x j) ?_
  by_contra hn
  simp [Ideal.cmp, hn] at hc

end Cert.Finite

end
-- ==== Proof.lean ====
/-
  The certificate of the block-consistency loss: a kernel that streams the 1,000,000 points once, accumulating per
  block (and per half of the grid) the count, the sum of the points and the sum of the unit points, and finishes the
  loss from those on the host, against a reference that scatters counts and sums, gathers each point's block centre,
  takes the cosine point by point and scatters it again.

  On the extended reals both compute one number. A block word outside [0, 100) is dropped by both (the kernel's lane
  mask, the reference's scatter). For a block `b` with centre `c` (the block's sum over `max count 1`) the kernel pairs
  `c` once with the block's sum of unit points and divides by `max |c| eps`; the reference divides each point's pairing
  with `c` by `max |z_i| eps` times `max |c| eps` and sums over the block. For finite points every quantity is a real and
  both clamped norms are positive, so the two are equal (Proof/CosLaw.lean); the rest is bookkeeping of indices
  (Proof/Reindex.lean) and reading each program's operations at an index.

  The frames of the two kernel programs are their generated frame certificates; the reference's frame is its run with
  the result dropped; the idealization rewrote nothing, so `preserves` is trivial.
-/
import proofs.«408775_j4844723110183_2_alg».proof.Defs
import proofs.«408775_j4844723110183_2_alg».proof.Proof.Gen.Kernel
import proofs.«408775_j4844723110183_2_alg».proof.Proof.Gen.Kernel.Frame
import proofs.«408775_j4844723110183_2_alg».proof.Proof.Gen.KernelIdeal
import proofs.«408775_j4844723110183_2_alg».proof.Proof.Gen.KernelIdeal.Frame
import proofs.«408775_j4844723110183_2_alg».proof.Proof.Gen.ReferenceIdeal
import proofs.«408775_j4844723110183_2_alg».proof.Proof.Gen.Pre_finite_inputs
import proofs.«408775_j4844723110183_2_alg».proof.Proof.RefRunP
import proofs.«408775_j4844723110183_2_alg».proof.Proof.RefReadP
import proofs.«408775_j4844723110183_2_alg».proof.Proof.RefValue
import proofs.«408775_j4844723110183_2_alg».proof.Proof.KernelRun
import proofs.«408775_j4844723110183_2_alg».proof.Proof.Bridge
import proofs.«408775_j4844723110183_2_alg».proof.Proof.Finite
import Idealize.ShloMosaic.Adequacy
import Idealize.ShloMosaic.Init

noncomputable section

namespace Cert.Proof

open Idealize.ShloMosaic Idealize.ShloMosaic.ValueIdx Idealize.SL.Sem

/-- Under the precondition the launch's points are finite, on every core. -/
theorem finite_points [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i d, ∃ r : ℝ, Cert.KernelIdeal.Arrays.zOf m c i d = (r : EReal) :=
  fun i d => Cert.Finite.real_of_pre _ _ (hpre c) (ix2 i d)

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- Both programs end with the loss of the shared arguments: the kernel's `lossK`, the reference's `lossR`, equal for
    finite points. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => fun _ => Cert.SegCos.lossK (Cert.KernelIdeal.Arrays.zOf m c) (Cert.KernelIdeal.Arrays.idsOf m c),
    Cert.KernelIdeal.KernelRun.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v48_eq, (hagree c).1, (hagree c).2]
  funext i
  rw [Cert.ReferenceIdeal.RefValue.ref_value]
  exact (Cert.SegCos.lossK_eq_lossR _ _ (finite_points m hpre c)).symm

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
